-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : IVec S8x2048 1) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Kernel.lean ====
abbrev S8x2048x1024 : Shape := ⟨3, ![8, 2048, 1024]⟩
abbrev S8x2048 : Shape := ⟨2, ![8, 2048]⟩
abbrev S8x2048x1 : Shape := ⟨3, ![8, 2048, 1]⟩
abbrev S8x1x2048 : Shape := ⟨3, ![8, 1, 2048]⟩
abbrev S1x512x1024 : Shape := ⟨3, ![1, 512, 1024]⟩
abbrev S1x1024x1024 : Shape := ⟨3, ![1, 1024, 1024]⟩
abbrev S1x512x1 : Shape := ⟨3, ![1, 512, 1]⟩
abbrev S1x1x1024 : Shape := ⟨3, ![1, 1, 1024]⟩
abbrev S512x1 : Shape := ⟨2, ![512, 1]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i1⟩
  | .hbm, ⟨2, _⟩ => ⟨S8x2048x1024, .bf16⟩
  | .hbm, ⟨3, _⟩ => ⟨S8x2048, .f32⟩
  | .hbm, ⟨4, _⟩ => ⟨S8x2048x1, .f32⟩
  | .hbm, ⟨5, _⟩ => ⟨S8x1x2048, .f32⟩
  | .hbm, ⟨6, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1, .f32⟩
  | .local _ .vmem, ⟨5, _⟩ => ⟨S1x512x1, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v34 : BitVec 1 := Scalar.cmpi .eq arg2 c1_i32
  let v35 : BitVec 32 := Scalar.extui v34
  let c0_i32_23 : BitVec 32 := 0#32
  let v36 : BitVec 1 := Scalar.cmpi .ne v35 c0_i32_23
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x1024.size a
  hwx0_1 : ∀ i : grid0.Coords, EltTy.bits .bf16 = 32 ∨ (Rect.block (s := S8x2048x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x2048.size a
  hwx0_3 : ∀ i : grid0.Coords, EltTy.bits .f32 = 32 ∨ (Rect.block (s := S8x1x2048) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i1⟩
  | .hbm, ⟨2, _⟩ => ⟨S8x2048x2048, .f32⟩
  | .hbm, ⟨3, _⟩ => ⟨S_, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048x1 : S_.BroadcastsInDim S8x2048x1 (![] : Fin 0 → Fin S8x2048x1.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Kernel.Runs.lean ====
/-
  What the two whole-body runs of the attention kernel and its frame share.

  The region is entered after four host operations: the change of format of `x`, the mask read as floats, and its two
  broadcasts to a column and to a row.  `V` is what each buffer holds there; the two argument arrays are not written by
  those operations.  A window's block at a grid point is read off its array as the region finds it.  The body has two
  conditionals on the third grid coordinate `ki ∈ {0, 1}`: the first (`ki = 0`) resets the two scratch accumulators,
  the second (`ki = 1`) stores the normalised output; so every even point is a reset point at which the output window
  is idle, and every odd point is a point that stores the output.
-/
import proofs.«132449_j53369263620547_1_alg».proof.Proof.Gen.Kernel.Launch
import proofs.«132449_j53369263620547_1_alg».proof.Proof.Gen.Kernel.Skeleton
import proofs.«132449_j53369263620547_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the four host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the frame run's -/

/-- Both argument arrays bypass the region (no window is on them), so a run that leaves every bypassing buffer at its
    entry contents leaves them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's two conditions, decided over the grid -/

/-- The first conditional's condition (`ki = 0`), from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition (`ki = 1`). -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At a reset point the output window is idle and is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At a storing point it is live. -/
theorem liveAt0_4_B : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1x512x1024 .f32 := (Memref.whole cc0_stg4_0 : Memref sig .tc .vmem S1x512x1024 .f32).view
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .f32 := win0_4.stage (cfg0.slots t 4)
abbrev hs0_4 (t : Fin cfg0.N) : (ms0_4 t).IsWhole := hstage0_4 ((cfg0.slots t 4).cast nbuf0_4)
/-- The two scratch accumulators: the running sum of the weights and the running weighted sum of the rows. -/
abbrev scM0_0 : Memref sig .tc .vmem S512x1 .f32 := Memref.whole cc0_scratch0
abbrev scM0_1 : Memref sig .tc .vmem S512x1024 .f32 := Memref.whole cc0_scratch1
abbrev VS0_0 : View sig .tc .vmem S512x1 .f32 := scM0_0.view
abbrev VS0_1 : View sig .tc .vmem S512x1024 .f32 := scM0_1.view

/-- The region's invariant with the two scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.Kernel.RunA.lean ====
/-
  The whole body at a reset point (`ki = 0`): both scratch accumulators are overwritten with zeros and then with the
  first tile's row sums and weighted rows; the output window is not touched.  The run finds, as lists of stored
  pieces (last first), what each scratch ends with.
-/
import proofs.«132449_j53369263620547_1_alg».proof.Proof.Kernel.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a reset point, on whole memrefs — the four inputs at their contents, the output at contents `xi4` handed back
    untouched, the two scratch accumulators at anything — the body runs to a continuation that holds the inputs as they
    were and each scratch with its pieces written. -/
noncomputable def kernelRun0_A (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) :
    Σ' (LS0 : List (View.Piece (Elt F) S512x1 .f32)), { LS1 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.Kernel.Fr

end
-- ==== Proof.Kernel.RunB.lean ====
/-
  The whole body at a storing point (`ki = 1`): nothing is reset; each scratch accumulator, which holds what the point
  before left, is added the second tile's row sums and weighted rows, and the output block is stored as the weighted
  rows divided by the summed weights plus the small constant.  The run finds, as lists of stored pieces (last first),
  what the output's buffer and each scratch end with.
-/
import proofs.«132449_j53369263620547_1_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a storing point, on whole memrefs — the four inputs at their contents, the output at anything, the two scratch
    accumulators at the contents `xs0`, `xs1` the point before left — the body runs to a continuation that holds the
    inputs as they were and the output's buffer and each scratch with its pieces written. -/
noncomputable def kernelRun0_B (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) :
    Σ' (L4 : List (View.Piece (Elt F) S1x512x1024 .f32)), Σ' (LS0 : List (View.Piece (Elt F) S512x1 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.Kernel.Fr

end
-- ==== Proof.Kernel.Frame.lean ====
/-
  The frame of the attention kernel: what every grid point leaves in the output's buffer and in the two scratch
  accumulators, the region's invariant, the proof data, and the body's obligation at every point.

  The grid's third coordinate alternates: an even point `t` resets the accumulators and leaves in them the first key
  tile's row sums and weighted rows; the odd point `t + 1` adds the second tile's to what `t` left and stores the output
  block.  So the contents after point `t` are defined by recursion on `t`, an odd point reading the accumulators the
  point before left.  The array `x` (in its narrower format) is read through two windows at once — the query tile
  and the key tile — so each holds half of the array's share.
-/
import proofs.«132449_j53369263620547_1_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a reset point the pieces stored into the weights' accumulator cover it. -/
theorem scover0_A_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) (y : S512x1.Idx) :
    ∃ pc ∈ (kernelRun0_A c i arg3 harg3 arg4 harg4 arg5 harg5 arg6 harg6 arg7 harg7 arg8 harg8 arg9 harg9 hc0 hc1 x0 x1 x2 x3).1, y ∈ pc.1.set :=
  View.cover_of_tiledL (kernelRun0_A c i arg3 harg3 arg4 harg4 arg5 harg5 arg6 harg6 arg7 harg7 arg8 harg8 arg9 harg9 hc0 hc1 x0 x1 x2 x3).1 S512x1.size (by sl_kernel_rfl) y
/-- What a reset point leaves in the weights' accumulator: its pieces read back. -/
def sout0_A_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) : Vec F S512x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).1)
/-- At a reset point the pieces stored into the rows' accumulator cover it. -/
theorem scover0_A_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) (y : S512x1024.Idx) :
    ∃ pc ∈ (kernelRun0_A c i arg3 harg3 arg4 harg4 arg5 harg5 arg6 harg6 arg7 harg7 arg8 harg8 arg9 harg9 hc0 hc1 x0 x1 x2 x3).2.1, y ∈ pc.1.set :=
  View.cover_of_tiledL (kernelRun0_A c i arg3 harg3 arg4 harg4 arg5 harg5 arg6 harg6 arg7 harg7 arg8 harg8 arg9 harg9 hc0 hc1 x0 x1 x2 x3).2.1 S512x1024.size (by sl_kernel_rfl) y
/-- What a reset point leaves in the rows' accumulator. -/
def sout0_A_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) : Vec F S512x1024 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2 x3).2.1)
/-- A reset point stores nothing into the output window: a placeholder nothing consults (the window is neither
    written back there nor read at the next point). -/
def out0_A_4 : Vec F S1x512x1024 .f32 := VO0_4.read (Elt F) VO0_4.junk

/-- At a storing point the one piece stored into the output's buffer covers it. -/
theorem cover0_B_4 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) (y : S1x512x1024.Idx) :
    ∃ pc ∈ (kernelRun0_B c i arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg3 harg3 arg4 harg4 arg5 harg5 arg6 harg6 arg7 harg7 arg8 harg8 arg9 harg9 hc0 hc1 x0 x1 x2 x3 xs0 xs1).1 S1x512x1024.size (by sl_kernel_rfl) y
/-- What a storing point leaves in the output's buffer. -/
def out0_B_4 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) : Vec F S1x512x1024 .f32 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 x3 xs0 xs1).1)
theorem scover0_B_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) (y : S512x1.Idx) :
    ∃ pc ∈ (kernelRun0_B c i arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.1 S512x1.size (by sl_kernel_rfl) y
/-- What a storing point leaves in the weights' accumulator. -/
def sout0_B_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) : Vec F S512x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0 xs1).2.1)
theorem scover0_B_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) (y : S512x1024.Idx) :
    ∃ pc ∈ (kernelRun0_B c i arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.2.1 S512x1024.size (by sl_kernel_rfl) y
/-- What a storing point leaves in the rows' accumulator. -/
def sout0_B_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) : Vec F S512x1024 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 x3 xs0 xs1).2.2.1)

/-! ## What the buffers hold after each point -/

/-- After the body at position `n`: the output's buffer, the weights' accumulator, the rows' accumulator.  An even
    position is a reset point; an odd one adds to what the position before left. -/
def outsAt0 (c : Dev nD) : (n : ℕ) → n < cfg0.N → Vec F S1x512x1024 .f32 × Vec F S512x1 .f32 × Vec F S512x1024 .f32
  | 0, hn => (out0_A_4,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk m c 0 ⟨0, hn⟩) (iblk m c 1 ⟨0, hn⟩) (iblk m c 2 ⟨0, hn⟩) (iblk m c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk m c 0 ⟨0, hn⟩) (iblk m c 1 ⟨0, hn⟩) (iblk m c 2 ⟨0, hn⟩) (iblk m c 3 ⟨0, hn⟩))
  | n + 1, hn =>
    if h0 : (n + 1) % 2 = 0 then
      (out0_A_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this h0); omega) (iblk m c 0 ⟨n + 1, hn⟩) (iblk m c 1 ⟨n + 1, hn⟩) (iblk m c 2 ⟨n + 1, hn⟩) (iblk m c 3 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this h0); omega) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only at h0 ⊢); omega)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only at h0 ⊢); omega)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only at h0 ⊢); omega)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` at a reset point. -/
theorem outsAt0_A (c : Dev nD) (t : Fin cfg0.N) (h0 : t.val % 2 = 0) :
    outsAt0 m c t.val t.isLt = (out0_A_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this h0); omega) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this h0); omega) (iblk m c 0 t) (iblk m c 1 t) (iblk m c 2 t) (iblk m c 3 t)) := by
  obtain ⟨n, hn⟩ := t
  cases n with
  | zero => exact rfl
  | succ n => exact (dif_pos h0).trans rfl

/-- `outsAt0` at a storing point: over what the point before left. -/
theorem outsAt0_B (c : Dev nD) (t : Fin cfg0.N) (h0 : ¬t.val % 2 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr (by (try dsimp only at h0 ⊢); omega)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr (by (try dsimp only at h0 ⊢); omega)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr (by (try dsimp only at h0 ⊢); omega)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- Before position `n`: before the first point the scratch accumulators hold anything; afterwards what the point
    before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The arrays as the region finds them; after the body each input's buffer at its block and the output's at
    `outsAt0`; the invariant `PhiS`; nothing owed; the array read through two windows shared in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
/-- The body at any point: the inputs' memrefs hold their blocks; the point's parity says which case it is in; the
    invariant hands the body the accumulators (at anything before the first point, else at what the point before
    left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 64 := lt_of_lt_of_eq t.isLt (show cfg0.N = 64 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dats m 0 c) 4 t (idleAt0_4_A t hc0 hc1) (noFlush0_4_A t hc0 hc1)]
    rw [outsAt0_A m c t h0]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hc1 : cond0_1 (grid0.coords t) := (hcond0_1 t).mpr (by omega)
    have hz : t.val ≠ 0 := fun h => h0 (by rw [h])
    rw [show (dats m 0 c).leavesExact 4 t = owns (c : Thread nD τ) (ms0_4 t) fullShare ((dats m 0 c).after 4 t) from by
      unfold Dat.leavesExact; rw [liveAt0_4_B t hc0 hc1], after0_4]
    rw [outsAt0_B m c t h0]
    unfold out0_B_4 sout0_B_0 sout0_B_1; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ hc0 hc1 (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Fr

end
-- ==== Proof.Kernel.ArrSplit.lean ====
/-
  The arrays of the kernel's one pipeline at the region's entry, from the buffers behind them.

  The pipeline has five windows.  Windows 0 and 1 both read the array `main_v0` (one array handed in twice, at two
  different blockings); windows 2 and 3 read `main_v2` and `main_v3`; window 4, the output, writes `main_v4`.  So the
  DISTINCT buffers behind the windows' arrays are the four `main_v0`, `main_v2`, `main_v3`, `main_v4`, each held
  whole at the full share, while the pipeline's proof data hold one points-to per WINDOW, each at the window's own
  share.  The full share of `main_v0` is the composition of its left and right halves; window 0 takes the left half and
  window 1 the right half, both at the same contents.  The other three buffers pass to their windows as they are.
-/
import proofs.«132449_j53369263620547_1_alg».proof.Proof.Gen.Kernel.Launch

noncomputable section

namespace Cert.Kernel.Fr

open Idealize.ShloMosaic Idealize.ShloMosaic.TcCoe
open Idealize.SL Idealize.SL.RA
open Idealize.SL.BI (sProp bigSep bigSepL bigSep_eq_bigSepL_of_eq bigSepL_cons_cons bigSepL_singleton)
open scoped Idealize.SL.BI
open Idealize.SL.BI.BIBase Idealize.SL.BI.Laws Idealize.SL.Sem Idealize.SL.ProofMode
open Cert.Kernel Cert.Kernel.Gen

variable {F : FTy → Type} [FloatOps F]

local notation "𝕄" => MT nD τ sig Unit (Elt F) ℕ (UR sig nD τ) ℕ

/-- The buffers behind the five windows' arrays are four: windows 0 and 1 are on the same one. -/
theorem arrRefs_eq : Finset.univ.image (Pipeline.arrRef spec0) = [main_v0, main_v2, main_v3, main_v4].toFinset := by decide

/-- The four buffers behind the windows' arrays, each whole at the full share at contents `V`, yield the proof data's
    arrays at entry, when the data give window 0 the left half of the full share, window 1 the right half, windows 2
    and 3 the full share (window 4 is the output and holds the full share by definition), and every window's entry
    contents are `V` at its array's buffer.  The full share of `main_v0` splits into its two halves, one per window on
    it; the other points-tos are handed over unchanged. -/
theorem hsplit_of {c : Dev nD} (dat : Pipeline.Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (hA : ∀ w, dat.A w = V (Pipeline.arrRef spec0 w)) :
    (Pipeline.arrBufs spec0 c V : sProp 𝕄) ⊢ dat.arrays (dat.arrAt · 0) := by
  -- both sides as chains: four buffers on the left, five windows on the right, every array a whole buffer
  unfold Pipeline.arrBufs Pipeline.Dat.arrays
  rw [bigSep_eq_bigSepL_of_eq [main_v0, main_v2, main_v3, main_v4] arrRefs_eq (by decide), Gen.bigSep_W0]
  simp only [bigSepL_cons_cons, bigSepL_singleton, View.set_whole]
  -- each window's share: an input's is the data's `q`, the output's is the full share
  have s0 : dat.share 0 = fullShare.left := hq0 ▸ rfl
  have s1 : dat.share 1 = fullShare.right := hq1 ▸ rfl
  have s2 : dat.share 2 = fullShare := hq2 ▸ rfl
  have s3 : dat.share 3 = fullShare := hq3 ▸ rfl
  have s4 : dat.share 4 = fullShare := rfl
  -- each window's contents before point 0 are its entry contents, `V` at its buffer
  have a0 : dat.arrAt 0 0 = V main_v0 := hA 0
  have a1 : dat.arrAt 1 0 = V main_v0 := hA 1
  have a2 : dat.arrAt 2 0 = V main_v2 := hA 2
  have a3 : dat.arrAt 3 0 = V main_v3 := hA 3
  have a4 : dat.arrAt 4 0 = V main_v4 := hA 4
  rw [s0, s1, s2, s3, s4, a0, a1, a2, a3, a4]
  refine (show (iprop((((c.tc : Thread nD τ).loc main_v0) ↦{fullShare} V main_v0) ∗ (((c.tc : Thread nD τ).loc main_v2) ↦{fullShare} V main_v2)
      ∗ (((c.tc : Thread nD τ).loc main_v3) ↦{fullShare} V main_v3) ∗ (((c.tc : Thread nD τ).loc main_v4) ↦{fullShare} V main_v4)) : sProp 𝕄) ⊢ _ from ?_)
  iintro ⟨H0, H2, H3, H4⟩
  -- the full share of `main_v0` is its left half composed with its right half
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

end Cert.Kernel.Fr

end
-- ==== Proof.LibFrameShared.lean ====
/-
  The frame run of a one-region pipeline kernel whose windows may SHARE arrays.

  The frame run for a kernel of the plainest class (one region on a static grid, no semaphore or transfer of the
  kernel's own, every unscoped buffer an array of the pipeline or written before the region by host operations,
  the scratch and the generator register carrying nothing named between points) is stated in the library under
  the assumption that the windows' arrays are pairwise distinct buffers: it then derives, from each array whole at
  the full share, the proof data's arrays at entry.  A kernel that is handed ONE array through several input
  windows does not meet that assumption.  Here the same run is stated with the distinctness replaced by the
  entailment itself: the buffers behind the arrays, each whole at the full share at the region's entry contents,
  yield the proof data's arrays at entry (an array read by several input windows split among them, each window's
  share named by the proof data).  Everything else is as in the distinct-arrays run: the generator register and
  the scoped rest are routed into the class invariant at entry and out of it at exit, the unscoped buffers that are
  no array bypass the region and are read back at the end unchanged.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- THE FRAME RUN with a tracking invariant for a pipeline whose windows may share arrays.  At the compiled mesh,
    from any memory with zero counters, every weakly fair execution of @main on the TensorCores terminates, and in
    every final state each window's array holds what the proof data compute for it after the last point
    (`Dat.arrAt … N`) and every unscoped buffer that is no window's array holds what it held at the region's entry
    (`V`).  The hypotheses are those of the distinct-arrays frame run, except that the arrays need not be distinct
    buffers (`WinFacts₀` in place of `WinFacts`) and the proof data need not hold every array at the full share:
    instead `hsplit` says that the buffers behind the arrays, each whole at the full share at the entry contents
    `V c`, entail the proof data's arrays at entry.  The invariant `Φ` is the certificate's own at every point,
    entered from the class invariant `ΦA` (scoped rest at some contents, generator register at some state) before
    point 0 and returned to it after the last point. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end FrameShared

end Pipeline

end Idealize.ShloMosaic

end
-- ==== Proof.Kernel.Main.lean ====
/-
  The frame run of the attention kernel and its frame.

  The kernel reads the array `x` (in its narrower format) through two windows, so the run is the one for windows that
  share arrays: the buffers behind the arrays, whole at the region's entry, yield the proof data's arrays with that
  array's share split in halves between the query and the key window.  Both argument arrays bypass the region and end
  as launched.
-/
import proofs.«132449_j53369263620547_1_alg».proof.Proof.Kernel.Frame
import proofs.«132449_j53369263620547_1_alg».proof.Proof.Kernel.ArrSplit
import proofs.«132449_j53369263620547_1_alg».proof.Proof.LibFrameShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each window's array at what the proof
    data compute and every other unscoped buffer at its contents at the region's entry. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => hsplit_of (dats m 0 c) rfl rfl rfl rfl (V m c) (A_eq m c)) (hin := hin m) (hout := hout m)

/-- The frame: @main runs to the end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KernelIdeal.Runs.lean ====
/-
  What the two whole-body runs of the attention kernel and its frame share.

  The region is entered after four host operations: the change of format of `x`, the mask read as floats, and its two
  broadcasts to a column and to a row.  `V` is what each buffer holds there; the two argument arrays are not written by
  those operations.  A window's block at a grid point is read off its array as the region finds it.  The body has two
  conditionals on the third grid coordinate `ki ∈ {0, 1}`: the first (`ki = 0`) resets the two scratch accumulators,
  the second (`ki = 1`) stores the normalised output; so every even point is a reset point at which the output window
  is idle, and every odd point is a point that stores the output.
-/
import proofs.«132449_j53369263620547_1_alg».proof.Proof.Gen.KernelIdeal.Launch
import proofs.«132449_j53369263620547_1_alg».proof.Proof.Gen.KernelIdeal.Skeleton
import proofs.«132449_j53369263620547_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the four host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the frame run's -/

/-- Both argument arrays bypass the region (no window is on them), so a run that leaves every bypassing buffer at its
    entry contents leaves them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's two conditions, decided over the grid -/

/-- The first conditional's condition (`ki = 0`), from the grid coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition (`ki = 1`). -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At a reset point the output window is idle and is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At a storing point it is live. -/
theorem liveAt0_4_B : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1x512x1024 .f32 := (Memref.whole cc0_stg4_0 : Memref sig .tc .vmem S1x512x1024 .f32).view
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .f32 := win0_4.stage (cfg0.slots t 4)
abbrev hs0_4 (t : Fin cfg0.N) : (ms0_4 t).IsWhole := hstage0_4 ((cfg0.slots t 4).cast nbuf0_4)
/-- The two scratch accumulators: the running sum of the weights and the running weighted sum of the rows. -/
abbrev scM0_0 : Memref sig .tc .vmem S512x1 .f32 := Memref.whole cc0_scratch0
abbrev scM0_1 : Memref sig .tc .vmem S512x1024 .f32 := Memref.whole cc0_scratch1
abbrev VS0_0 : View sig .tc .vmem S512x1 .f32 := scM0_0.view
abbrev VS0_1 : View sig .tc .vmem S512x1024 .f32 := scM0_1.view

/-- The region's invariant with the two scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KernelIdeal.RunA.lean ====
/-
  The whole body at a reset point (`ki = 0`): both scratch accumulators are overwritten with zeros and then with the
  first tile's row sums and weighted rows; the output window is not touched.  The run finds, as lists of stored
  pieces (last first), what each scratch ends with.
-/
import proofs.«132449_j53369263620547_1_alg».proof.Proof.KernelIdeal.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a reset point, on whole memrefs — the four inputs at their contents, the output at contents `xi4` handed back
    untouched, the two scratch accumulators at anything — the body runs to a continuation that holds the inputs as they
    were and each scratch with its pieces written. -/
noncomputable def kernelRun0_A (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) :
    Σ' (LS0 : List (View.Piece (Elt F) S512x1 .f32)), { LS1 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    iexists _; iexact HS1

end Cert.KernelIdeal.Fr

end
-- ==== Proof.KernelIdeal.RunB.lean ====
/-
  The whole body at a storing point (`ki = 1`): nothing is reset; each scratch accumulator, which holds what the point
  before left, is added the second tile's row sums and weighted rows, and the output block is stored as the weighted
  rows divided by the summed weights plus the small constant.  The run finds, as lists of stored pieces (last first),
  what the output's buffer and each scratch end with.
-/
import proofs.«132449_j53369263620547_1_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a storing point, on whole memrefs — the four inputs at their contents, the output at anything, the two scratch
    accumulators at the contents `xs0`, `xs1` the point before left — the body runs to a continuation that holds the
    inputs as they were and the output's buffer and each scratch with its pieces written. -/
noncomputable def kernelRun0_B (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) :
    Σ' (L4 : List (View.Piece (Elt F) S1x512x1024 .f32)), Σ' (LS0 : List (View.Piece (Elt F) S512x1 .f32)), { LS1 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.KernelIdeal.Fr

end
-- ==== Proof.KernelIdeal.Frame.lean ====
/-
  The frame of the attention kernel: what every grid point leaves in the output's buffer and in the two scratch
  accumulators, the region's invariant, the proof data, and the body's obligation at every point.

  The grid's third coordinate alternates: an even point `t` resets the accumulators and leaves in them the first key
  tile's row sums and weighted rows; the odd point `t + 1` adds the second tile's to what `t` left and stores the output
  block.  So the contents after point `t` are defined by recursion on `t`, an odd point reading the accumulators the
  point before left.  The array `x` (in its narrower format) is read through two windows at once — the query tile
  and the key tile — so each holds half of the array's share.
-/
import proofs.«132449_j53369263620547_1_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a reset point the pieces stored into the weights' accumulator cover it. -/
theorem scover0_A_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) (y : S512x1.Idx) :
    ∃ pc ∈ (kernelRun0_A c i arg3 harg3 arg4 harg4 arg5 harg5 arg6 harg6 arg7 harg7 arg8 harg8 arg9 harg9 hc0 hc1 x0 x1 x2 x3).1, y ∈ pc.1.set :=
  View.cover_of_tiledL (kernelRun0_A c i arg3 harg3 arg4 harg4 arg5 harg5 arg6 harg6 arg7 harg7 arg8 harg8 arg9 harg9 hc0 hc1 x0 x1 x2 x3).1 S512x1.size (by sl_kernel_rfl) y
/-- What a reset point leaves in the weights' accumulator: its pieces read back. -/
def sout0_A_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) : Vec F S512x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).1)
/-- At a reset point the pieces stored into the rows' accumulator cover it. -/
theorem scover0_A_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) (y : S512x1024.Idx) :
    ∃ pc ∈ (kernelRun0_A c i arg3 harg3 arg4 harg4 arg5 harg5 arg6 harg6 arg7 harg7 arg8 harg8 arg9 harg9 hc0 hc1 x0 x1 x2 x3).2.1, y ∈ pc.1.set :=
  View.cover_of_tiledL (kernelRun0_A c i arg3 harg3 arg4 harg4 arg5 harg5 arg6 harg6 arg7 harg7 arg8 harg8 arg9 harg9 hc0 hc1 x0 x1 x2 x3).2.1 S512x1024.size (by sl_kernel_rfl) y
/-- What a reset point leaves in the rows' accumulator. -/
def sout0_A_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) : Vec F S512x1024 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2 x3).2.1)
/-- A reset point stores nothing into the output window: a placeholder nothing consults (the window is neither
    written back there nor read at the next point). -/
def out0_A_4 : Vec F S1x512x1024 .f32 := VO0_4.read (Elt F) VO0_4.junk

/-- At a storing point the one piece stored into the output's buffer covers it. -/
theorem cover0_B_4 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) (y : S1x512x1024.Idx) :
    ∃ pc ∈ (kernelRun0_B c i arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg3 harg3 arg4 harg4 arg5 harg5 arg6 harg6 arg7 harg7 arg8 harg8 arg9 harg9 hc0 hc1 x0 x1 x2 x3 xs0 xs1).1 S1x512x1024.size (by sl_kernel_rfl) y
/-- What a storing point leaves in the output's buffer. -/
def out0_B_4 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) : Vec F S1x512x1024 .f32 :=
  VO0_4.read (Elt F) (VO0_4.writes (Elt F) VO0_4.junk (kernelRun0_B c i arg3 harg3 arg4 harg4 arg5 harg5 arg6 harg6 arg7 harg7 arg8 harg8 arg9 harg9 hc0 hc1 x0 x1 x2 x3 xs0 xs1).1)
theorem scover0_B_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) (y : S512x1.Idx) :
    ∃ pc ∈ (kernelRun0_B c i arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.1 S512x1.size (by sl_kernel_rfl) y
/-- What a storing point leaves in the weights' accumulator. -/
def sout0_B_0 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) : Vec F S512x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0 xs1).2.1)
theorem scover0_B_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) (y : S512x1024.Idx) :
    ∃ pc ∈ (kernelRun0_B c i arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg3 harg3 arg4 harg4 arg5 harg5 arg6 harg6 arg7 harg7 arg8 harg8 arg9 harg9 hc0 hc1 x0 x1 x2 x3 xs0 xs1).2.2.1 S512x1024.size (by sl_kernel_rfl) y
/-- What a storing point leaves in the rows' accumulator. -/
def sout0_B_1 (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) : Vec F S512x1024 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 x3 xs0 xs1).2.2.1)

/-! ## What the buffers hold after each point -/

/-- After the body at position `n`: the output's buffer, the weights' accumulator, the rows' accumulator.  An even
    position is a reset point; an odd one adds to what the position before left. -/
def outsAt0 (c : Dev nD) : (n : ℕ) → n < cfg0.N → Vec F S1x512x1024 .f32 × Vec F S512x1 .f32 × Vec F S512x1024 .f32
  | 0, hn => (out0_A_4,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk m c 0 ⟨0, hn⟩) (iblk m c 1 ⟨0, hn⟩) (iblk m c 2 ⟨0, hn⟩) (iblk m c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => by have := (hcond0_1 ⟨0, hn⟩).mp h; (try dsimp only at this); omega) (iblk m c 0 ⟨0, hn⟩) (iblk m c 1 ⟨0, hn⟩) (iblk m c 2 ⟨0, hn⟩) (iblk m c 3 ⟨0, hn⟩))
  | n + 1, hn =>
    if h0 : (n + 1) % 2 = 0 then
      (out0_A_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this h0); omega) (iblk m c 0 ⟨n + 1, hn⟩) (iblk m c 1 ⟨n + 1, hn⟩) (iblk m c 2 ⟨n + 1, hn⟩) (iblk m c 3 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => by have := (hcond0_1 ⟨n + 1, hn⟩).mp h; (try dsimp only at this h0); omega) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only at h0 ⊢); omega)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only at h0 ⊢); omega)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr (by (try dsimp only at h0 ⊢); omega)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

/-- `outsAt0` at a reset point. -/
theorem outsAt0_A (c : Dev nD) (t : Fin cfg0.N) (h0 : t.val % 2 = 0) :
    outsAt0 m c t.val t.isLt = (out0_A_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this h0); omega) (iblk m c 0 t) (iblk m c 1 t) (iblk m c 2 t) (iblk m c 3 t),
      sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => by have := (hcond0_1 t).mp h; (try dsimp only at this h0); omega) (iblk m c 0 t) (iblk m c 1 t) (iblk m c 2 t) (iblk m c 3 t)) := by
  obtain ⟨n, hn⟩ := t
  cases n with
  | zero => exact rfl
  | succ n => exact (dif_pos h0).trans rfl

/-- `outsAt0` at a storing point: over what the point before left. -/
theorem outsAt0_B (c : Dev nD) (t : Fin cfg0.N) (h0 : ¬t.val % 2 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr (by (try dsimp only at h0 ⊢); omega)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr (by (try dsimp only at h0 ⊢); omega)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr (by (try dsimp only at h0 ⊢); omega)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- Before position `n`: before the first point the scratch accumulators hold anything; afterwards what the point
    before left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The arrays as the region finds them; after the body each input's buffer at its block and the output's at
    `outsAt0`; the invariant `PhiS`; nothing owed; the array read through two windows shared in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
/-- The body at any point: the inputs' memrefs hold their blocks; the point's parity says which case it is in; the
    invariant hands the body the accumulators (at anything before the first point, else at what the point before
    left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 64 := lt_of_lt_of_eq t.isLt (show cfg0.N = 64 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dats m 0 c) 4 t (idleAt0_4_A t hc0 hc1) (noFlush0_4_A t hc0 hc1)]
    rw [outsAt0_A m c t h0]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ hc0 hc1 (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hc1 : cond0_1 (grid0.coords t) := (hcond0_1 t).mpr (by omega)
    have hz : t.val ≠ 0 := fun h => h0 (by rw [h])
    rw [show (dats m 0 c).leavesExact 4 t = owns (c : Thread nD τ) (ms0_4 t) fullShare ((dats m 0 c).after 4 t) from by
      unfold Dat.leavesExact; rw [liveAt0_4_B t hc0 hc1], after0_4]
    rw [outsAt0_B m c t h0]
    unfold out0_B_4 sout0_B_0 sout0_B_1; (try dsimp only)
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ hc0 hc1 (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        · unfold owns; iexists _; isplitr
          swap; · iexact HS1
          ipureintro; exact View.read_writes_of_cover _ _ _ _ _ (scover0_B_1 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Fr

end
-- ==== Proof.KernelIdeal.ArrSplit.lean ====
/-
  The arrays of the kernel's one pipeline at the region's entry, from the buffers behind them.

  The pipeline has five windows.  Windows 0 and 1 both read the array `main_v0` (one array handed in twice, at two
  different blockings); windows 2 and 3 read `main_v2` and `main_v3`; window 4, the output, writes `main_v4`.  So the
  DISTINCT buffers behind the windows' arrays are the four `main_v0`, `main_v2`, `main_v3`, `main_v4`, each held
  whole at the full share, while the pipeline's proof data hold one points-to per WINDOW, each at the window's own
  share.  The full share of `main_v0` is the composition of its left and right halves; window 0 takes the left half and
  window 1 the right half, both at the same contents.  The other three buffers pass to their windows as they are.
-/
import proofs.«132449_j53369263620547_1_alg».proof.Proof.Gen.KernelIdeal.Launch

noncomputable section

namespace Cert.KernelIdeal.Fr

open Idealize.ShloMosaic Idealize.ShloMosaic.TcCoe
open Idealize.SL Idealize.SL.RA
open Idealize.SL.BI (sProp bigSep bigSepL bigSep_eq_bigSepL_of_eq bigSepL_cons_cons bigSepL_singleton)
open scoped Idealize.SL.BI
open Idealize.SL.BI.BIBase Idealize.SL.BI.Laws Idealize.SL.Sem Idealize.SL.ProofMode
open Cert.KernelIdeal Cert.KernelIdeal.Gen

variable {F : FTy → Type} [FloatOps F]

local notation "𝕄" => MT nD τ sig Unit (Elt F) ℕ (UR sig nD τ) ℕ

/-- The buffers behind the five windows' arrays are four: windows 0 and 1 are on the same one. -/
theorem arrRefs_eq : Finset.univ.image (Pipeline.arrRef spec0) = [main_v0, main_v2, main_v3, main_v4].toFinset := by decide

/-- The four buffers behind the windows' arrays, each whole at the full share at contents `V`, yield the proof data's
    arrays at entry, when the data give window 0 the left half of the full share, window 1 the right half, windows 2
    and 3 the full share (window 4 is the output and holds the full share by definition), and every window's entry
    contents are `V` at its array's buffer.  The full share of `main_v0` splits into its two halves, one per window on
    it; the other points-tos are handed over unchanged. -/
theorem hsplit_of {c : Dev nD} (dat : Pipeline.Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (hA : ∀ w, dat.A w = V (Pipeline.arrRef spec0 w)) :
    (Pipeline.arrBufs spec0 c V : sProp 𝕄) ⊢ dat.arrays (dat.arrAt · 0) := by
  -- both sides as chains: four buffers on the left, five windows on the right, every array a whole buffer
  unfold Pipeline.arrBufs Pipeline.Dat.arrays
  rw [bigSep_eq_bigSepL_of_eq [main_v0, main_v2, main_v3, main_v4] arrRefs_eq (by decide), Gen.bigSep_W0]
  simp only [bigSepL_cons_cons, bigSepL_singleton, View.set_whole]
  -- each window's share: an input's is the data's `q`, the output's is the full share
  have s0 : dat.share 0 = fullShare.left := hq0 ▸ rfl
  have s1 : dat.share 1 = fullShare.right := hq1 ▸ rfl
  have s2 : dat.share 2 = fullShare := hq2 ▸ rfl
  have s3 : dat.share 3 = fullShare := hq3 ▸ rfl
  have s4 : dat.share 4 = fullShare := rfl
  -- each window's contents before point 0 are its entry contents, `V` at its buffer
  have a0 : dat.arrAt 0 0 = V main_v0 := hA 0
  have a1 : dat.arrAt 1 0 = V main_v0 := hA 1
  have a2 : dat.arrAt 2 0 = V main_v2 := hA 2
  have a3 : dat.arrAt 3 0 = V main_v3 := hA 3
  have a4 : dat.arrAt 4 0 = V main_v4 := hA 4
  rw [s0, s1, s2, s3, s4, a0, a1, a2, a3, a4]
  refine (show (iprop((((c.tc : Thread nD τ).loc main_v0) ↦{fullShare} V main_v0) ∗ (((c.tc : Thread nD τ).loc main_v2) ↦{fullShare} V main_v2)
      ∗ (((c.tc : Thread nD τ).loc main_v3) ↦{fullShare} V main_v3) ∗ (((c.tc : Thread nD τ).loc main_v4) ↦{fullShare} V main_v4)) : sProp 𝕄) ⊢ _ from ?_)
  iintro ⟨H0, H2, H3, H4⟩
  -- the full share of `main_v0` is its left half composed with its right half
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  iexact H4

end Cert.KernelIdeal.Fr

end
-- ==== Proof.KernelIdeal.Main.lean ====
/-
  The frame run of the attention kernel and its frame.

  The kernel reads the array `x` (in its narrower format) through two windows, so the run is the one for windows that
  share arrays: the buffers behind the arrays, whole at the region's entry, yield the proof data's arrays with that
  array's share split in halves between the query and the key window.  Both argument arrays bypass the region and end
  as launched.
-/
import proofs.«132449_j53369263620547_1_alg».proof.Proof.KernelIdeal.Frame
import proofs.«132449_j53369263620547_1_alg».proof.Proof.KernelIdeal.ArrSplit
import proofs.«132449_j53369263620547_1_alg».proof.Proof.LibFrameShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has each window's array at what the proof
    data compute and every other unscoped buffer at its contents at the region's entry. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => hsplit_of (dats m 0 c) rfl rfl rfl rfl (V m c) (A_eq m c)) (hin := hin m) (hout := hout m)

/-- The frame: @main runs to the end, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KernelIdeal.Pieces.lean ====
/-
  What each case of the body leaves in the output's buffer and in the two scratch accumulators, as the body's own
  pure values of what it loaded.

  A reset point stores zeros and then the first update, so each accumulator ends at the update of zeros; a storing
  point updates what the accumulators held and stores the quotient of the two updated accumulators.

  Every store and load is through the rectangle of the whole buffer at offset zero: such a store, made last, leaves
  its payload whatever was stored before; a load through it reads the contents; and a load after one such store reads
  that store's payload.  So each buffer ends at its last payload, with every value that payload loaded read back.
-/
import proofs.«132449_j53369263620547_1_alg».proof.Proof.KernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of the whole-buffer rectangles, of rank two and of rank three, are the constant zero function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A reset point leaves the weights' accumulator at the row-sum update of zeros. -/
theorem sout0_A_0_eq (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) :
    sout0_A_0 c i arg3 harg3 arg4 harg4 arg5 harg5 arg6 harg6 arg7 harg7 arg8 harg8 arg9 harg9 hc0 hc1 x0 x1 x2 x3 = k0_pay7 x0 x1 x2 x3 (k0_pay3 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg3.read_unread, harg4.read_unread, harg5.read_unread, harg6.read_unread,
    View.ld_unit_zero (S := S1x512x1024) hz3, View.ld_unit_zero (S := S1x1024x1024) hz3, View.ld_unit_zero (S := S1x512x1) hz3,
    View.ld_unit_zero (S := S1x1x1024) hz3, View.readCov_unit_zero (S := S512x1) _ hz2]

/-- A reset point leaves the rows' accumulator at the weighted-rows update of zeros. -/
theorem sout0_A_1_eq (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : cond0_0 i) (hc1 : ¬cond0_1 i)
    (x0 : Vec F S1x512x1024 .bf16) (x1 : Vec F S1x1024x1024 .bf16) (x2 : Vec F S1x512x1 .f32) (x3 : Vec F S1x1x1024 .f32) :
    sout0_A_1 c i arg3 harg3 arg4 harg4 arg5 harg5 arg6 harg6 arg7 harg7 arg8 harg8 arg9 harg9 hc0 hc1 x0 x1 x2 x3 = k0_pay1 (k0_pay8 x0 x1 x2 x3 (k0_pay4 (F := F))) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1024) hz2]
  simp only [View.readAt_eq_ld, harg3.read_unread, harg4.read_unread, harg5.read_unread, harg6.read_unread,
    View.ld_unit_zero (S := S1x512x1024) hz3, View.ld_unit_zero (S := S1x1024x1024) hz3, View.ld_unit_zero (S := S1x512x1) hz3,
    View.ld_unit_zero (S := S1x1x1024) hz3, View.readCov_unit_zero (S := S512x1024) _ hz2]

/-- A storing point leaves the weights' accumulator at the row-sum update of what it held. -/
theorem sout0_B_0_eq (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) :
    sout0_B_0 c i arg3 harg3 arg4 harg4 arg5 harg5 arg6 harg6 arg7 harg7 arg8 harg8 arg9 harg9 hc0 hc1 x0 x1 x2 x3 xs0 xs1 = k0_pay7 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S512x1) hz2]
  simp only [View.readAt_eq_ld, harg3.read_unread, harg4.read_unread, harg5.read_unread, harg6.read_unread,
    View.ld_unit_zero (S := S1x512x1024) hz3, View.ld_unit_zero (S := S1x1024x1024) hz3, View.ld_unit_zero (S := S1x512x1) hz3,
    View.ld_unit_zero (S := S1x1x1024) hz3, harg8.read_unread, View.ld_unit_zero (S := S512x1) hz2]

/-- A storing point leaves the rows' accumulator at the weighted-rows update of what it held. -/
theorem sout0_B_1_eq (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) :
    sout0_B_1 c i arg3 harg3 arg4 harg4 arg5 harg5 arg6 harg6 arg7 harg7 arg8 harg8 arg9 harg9 hc0 hc1 x0 x1 x2 x3 xs0 xs1 = k0_pay1 (k0_pay8 x0 x1 x2 x3 xs1) := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S512x1024) hz2]
  simp only [View.readAt_eq_ld, harg3.read_unread, harg4.read_unread, harg5.read_unread, harg6.read_unread,
    View.ld_unit_zero (S := S1x512x1024) hz3, View.ld_unit_zero (S := S1x1024x1024) hz3, View.ld_unit_zero (S := S1x512x1) hz3,
    View.ld_unit_zero (S := S1x1x1024) hz3, harg9.read_unread, View.ld_unit_zero (S := S512x1024) hz2]

/-- A storing point leaves the output's buffer at the quotient of the two updated accumulators. -/
theorem out0_B_4_eq (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1024 .f32) (harg9 : arg9.IsWhole) (hc0 : ¬cond0_0 i) (hc1 : cond0_1 i)
    (x0 : Vec F S1x512x1024 .bf16) (x1 : Vec F S1x1024x1024 .bf16) (x2 : Vec F S1x512x1 .f32) (x3 : Vec F S1x1x1024 .f32) (xs0 : Vec F S512x1 .f32) (xs1 : Vec F S512x1024 .f32) :
    out0_B_4 c i arg3 harg3 arg4 harg4 arg5 harg5 arg6 harg6 arg7 harg7 arg8 harg8 arg9 harg9 hc0 hc1 x0 x1 x2 x3 xs0 xs1 = k0_pay2 (k0_pay1 (k0_pay8 x0 x1 x2 x3 xs1)) (k0_pay7 x0 x1 x2 x3 xs0) := by
  unfold out0_B_4
  rw [View.read_writes_eq_canon _ _ _ (cover0_B_4 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1x512x1024) hz3]
  simp only [View.readAt_eq_ld, harg3.read_unread, harg4.read_unread, harg5.read_unread, harg6.read_unread,
    View.ld_unit_zero (S := S1x512x1024) hz3, View.ld_unit_zero (S := S1x1024x1024) hz3, View.ld_unit_zero (S := S1x512x1) hz3,
    View.ld_unit_zero (S := S1x1x1024) hz3, harg8.read_unread, harg9.read_unread, View.ld_unit_zero (S := S512x1) hz2, View.ld_unit_zero (S := S512x1024) hz2,
    View.readCov_unit_zero (S := S512x1) _ hz2, View.readCov_unit_zero (S := S512x1024) _ hz2]

end Cert.KernelIdeal.Fr

end
-- ==== Proof.KernelIdeal.PayIdx.lean ====
/-
  The kernel body's pure values read at an index, on the extended reals.

  For a query row `r` and a key row `j` of the current tiles the body's weight is
  `exp (⟨q r, k j⟩ · 2⁻⁵) · μq r · μk j`; the weights' accumulator gains the row sum of the weights, the rows' accumulator
  gains the weights times the key tile, and the output is the rows' accumulator divided by the weights' accumulator
  plus the small constant.
-/
import proofs.«132449_j53369263620547_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-! ## A column: one entry per row

A vector of row values is kept as an `[a, 1]` column; it is spread over the `b` entries of each row by a broadcast. -/

section Column
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The exponential of a vector read at an index is the exponential of its entry there. -/
theorem exp_apply {s : Shape} {φ : FTy} (a : FVec Ideal s φ) (i : s.Idx) : exp a i = Ideal.exp (a i) := rfl

/-! ## The product of a `[512, 1024]` by a `[1024, 1024]` matrix

The one contraction record of the body: the left operand's axis 1 against the right operand's axis 0. At the output
entry `(r, c)` and contraction coordinate `k` the operands are read at `(r, k)` and `(k, c)`. -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero matrix, read at `(r, c)`: the sum over the shared coordinate of the operands' products. -/
theorem matmul_at {φ₁ φ₂ : FTy} (lhs : FVec Ideal S512x1024 φ₁) (rhs : FVec Ideal S1024x1024 φ₂) (r : Fin 512) (c : Fin 1024) :
    matmul dot_S512x1024_S1024x1024_S512x1024_1_0_0_1_n_n none lhs rhs (constant (F := Ideal) S512x1024 .f32 0x00000000#32) (ix2 r c)
      = ∑ k : Fin 1024, lhs (ix2 r k) * rhs (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (rhs_dot_0 _ _).trans hk
    | ⟨1, _⟩ => exact rhs_dot_1 _ _)
  rw [el, er]

/-! ## The body's values -/

variable (x0 : Vec Ideal S1x512x1024 .bf16) (x1 : Vec Ideal S1x1024x1024 .bf16) (x2 : Vec Ideal S1x512x1 .f32) (x3 : Vec Ideal S1x1x1024 .f32)

/-- The weight of key row `j` for query row `r`, from the four input blocks. -/
def wBlk (r : Fin 512) (j : Fin 1024) : EReal :=
  Ideal.exp ((∑ d : Fin 1024, x0 (ix3 0 r d) * x1 (ix3 0 j d)) * Ideal.ofBits .f32 0x3D000000#32) * x2 (ix3 0 r 0) * x3 (ix3 0 0 j)

/-- The weights' matrix at `(r, j)`: the scaled inner product of query row `r` and key row `j` (the key tile is read
    transposed), exponentiated, times the two masks' entries. -/
theorem pay6_at (r : Fin 512) (j : Fin 1024) :
    k0_pay6 (F := Ideal) x0 x1 x2 x3 (ix2 r j) = wBlk x0 x1 x2 x3 r j := by
  unfold k0_pay6 k0_pay5 wBlk
  simp only [mulf_apply, exp_apply, broadcast_apply]
  rw [matmul_at, broadcastTo_a1_ab_apply, broadcastTo_1b_ab_apply, shapeCast_1ab_ab_apply, shapeCast_1ab_ab_apply]
  refine congrArg (fun s : EReal => Ideal.exp (s * Ideal.ofBits .f32 0x3D000000#32) * x2 (ix3 0 r 0) * x3 (ix3 0 0 j))
    (Finset.sum_congr rfl fun d _ => ?_)
  rw [shapeCast_1ab_ab_apply, transpose_ix2_apply, shapeCast_1ab_ab_apply]

/-- The index a sum along the second axis of a `[512, 1024]` matrix reads at row `r` and coordinate `k` is `(r, k)`. -/
theorem lift_row (r : Fin 512) (k : Fin (S512x1024.size 1)) :
    reduces_S512x1024_S512.lift (ix1 r) k = ix2 r k :=
  funext fun a => match a with
    | ⟨0, _⟩ => Fin.ext rfl
    | ⟨1, _⟩ => Fin.ext rfl

/-- The sum of a `[512, 1024]` matrix along its rows, from zero, read at row `r`: the sum of that row's entries. -/
theorem rowSum_at (src : FVec Ideal S512x1024 .f32) (hφ : FKind.Formats .f32)
    (hacc : (0x00000000#32 : BitVec 32) = 0x00000000#32) (r : Fin 512) :
    multiReduction (F := Ideal) .add [1] S512 src 0x00000000#32 reduces_S512x1024_S512 hφ hacc (ix1 r)
      = ∑ j : Fin 1024, src (ix2 r j) := by
  refine (Ideal.multiReduction_add_single src 0x00000000#32 reduces_S512x1024_S512 hφ hacc (ix1 r)).trans ?_
  exact Finset.sum_congr rfl fun k _ => congrArg src (lift_row r k)

/-- The weights' accumulator at row `r` gains the sum of that row's weights. -/
theorem pay7_at (v20 : Vec Ideal S512x1 .f32) (r : Fin 512) :
    k0_pay7 (F := Ideal) x0 x1 x2 x3 v20 (ix2 r 0) = v20 (ix2 r 0) + ∑ j : Fin 1024, wBlk x0 x1 x2 x3 r j := by
  unfold k0_pay7
  simp only [shapeCast_self, addf_apply]
  rw [shapeCast_a_a1_apply, rowSum_at]
  simp only [pay6_at]

/-- The rows' accumulator at `(r, d)` gains the weights of row `r` times the key tile's column `d`. -/
theorem pay8_at (v29 : Vec Ideal S512x1024 .f32) (r : Fin 512) (d : Fin 1024) :
    k0_pay8 (F := Ideal) x0 x1 x2 x3 v29 (ix2 r d) = v29 (ix2 r d) + ∑ j : Fin 1024, wBlk x0 x1 x2 x3 r j * x1 (ix3 0 j d) := by
  unfold k0_pay8 k0_pay5
  simp only [addf_apply]
  rw [matmul_at]
  simp only [truncf_apply, shapeCast_1ab_ab_apply, pay6_at]

/-- The output at `(r, d)`: the rows' accumulator over the weights' accumulator of row `r` plus the small constant. -/
theorem pay2_at (v37 : Vec Ideal S512x1024 .f32) (v38 : Vec Ideal S512x1 .f32) (r : Fin 512) (d : Fin 1024) :
    k0_pay2 (F := Ideal) v37 v38 (ix3 0 r d) = Ideal.div (v37 (ix2 r d)) (v38 (ix2 r 0) + Ideal.ofBits .f32 0x33D6BF95#32) := by
  unfold k0_pay2
  rw [shapeCast_ab_1ab_apply, divf_apply, broadcastTo_a1_ab_apply, addf_apply, broadcast_apply]
  rfl

/-- The rows' accumulator is stored as it is: a cast to its own shape changes nothing. -/
theorem pay1_eq (v30 : FVec Ideal S512x1024 .f32) : k0_pay1 (F := Ideal) v30 = v30 := by
  unfold k0_pay1
  exact shapeCast_self v30 _

/-- The weights' accumulator starts at zero. -/
theorem pay3_at (r : Fin 512) : k0_pay3 (F := Ideal) (ix2 r 0) = 0 := by
  unfold k0_pay3
  rw [shapeCast_self, broadcast_apply]
  exact Ideal.ofBits_zero_f32

/-- The rows' accumulator starts at zero. -/
theorem pay4_at (r : Fin 512) (d : Fin 1024) : k0_pay4 (F := Ideal) (ix2 r d) = 0 := by
  unfold k0_pay4
  rw [shapeCast_self, broadcast_apply]
  exact Ideal.ofBits_zero_f32

end Cert.KernelIdeal.Val

end
-- ==== Proof.KernelIdeal.Coords.lean ====
/-
  The grid's points by their position.  The grid is 8 × 4 × 2 (batch, query tile, key tile), in row-major order, so
  position `t` is batch `t / 8`, query tile `(t / 2) % 4` and key tile `t % 2`.  Query row `r` of the tile at `t` is
  row `((t / 2) % 4) · 512 + r` of the array, key row `j` is row `(t % 2) · 1024 + j`.  The windows' block indices at
  `t` follow: the query tile and the column mask at `(batch, query tile, 0)`, the key tile at `(batch, key tile, 0)`,
  the row mask at `(batch, 0, key tile)`, the output at `(batch, query tile, 0)`.
-/
import proofs.«132449_j53369263620547_1_alg».proof.Proof.Gen.KernelIdeal.Launch
import proofs.«132449_j53369263620547_1_alg».proof.Proof.Gen.KernelIdeal.Points

noncomputable section

namespace Cert.KernelIdeal.Val

open Cert.KernelIdeal Cert.KernelIdeal.Gen
open Idealize.ShloMosaic

theorem N_lt (t : Fin cfg0.N) : t.val < 64 := lt_of_lt_of_eq t.isLt (show cfg0.N = 64 from N_0)

/-- The batch of the point at position `t`. -/
def bOf (t : Fin cfg0.N) : Fin 8 := ⟨t.val / 8, by have := N_lt t; omega⟩
/-- The array row of query row `r` of the tile at `t`. -/
def qrow (t : Fin cfg0.N) (r : Fin 512) : Fin 2048 := ⟨(t.val / 2 % 4) * 512 + r.val, by have := r.isLt; omega⟩
/-- The array row of key row `j` of the tile at `t`. -/
def krow (t : Fin cfg0.N) (j : Fin 1024) : Fin 2048 := ⟨(t.val % 2) * 1024 + j.val, by have := j.isLt; omega⟩

/-- The block indices of the five windows at position `t`. -/
theorem idx0 : ∀ t : Fin cfg0.N, (cfg0.win 0).index t 0 = t.val / 8 ∧ (cfg0.win 0).index t 1 = t.val / 2 % 4 ∧ (cfg0.win 0).index t 2 = 0 :=
  (by decide +kernel : ∀ t : Fin grid0.N, win0_0.index t 0 = t.val / 8 ∧ win0_0.index t 1 = t.val / 2 % 4 ∧ win0_0.index t 2 = 0)
theorem idx1 : ∀ t : Fin cfg0.N, (cfg0.win 1).index t 0 = t.val / 8 ∧ (cfg0.win 1).index t 1 = t.val % 2 ∧ (cfg0.win 1).index t 2 = 0 :=
  (by decide +kernel : ∀ t : Fin grid0.N, win0_1.index t 0 = t.val / 8 ∧ win0_1.index t 1 = t.val % 2 ∧ win0_1.index t 2 = 0)
theorem idx2 : ∀ t : Fin cfg0.N, (cfg0.win 2).index t 0 = t.val / 8 ∧ (cfg0.win 2).index t 1 = t.val / 2 % 4 ∧ (cfg0.win 2).index t 2 = 0 :=
  (by decide +kernel : ∀ t : Fin grid0.N, win0_2.index t 0 = t.val / 8 ∧ win0_2.index t 1 = t.val / 2 % 4 ∧ win0_2.index t 2 = 0)
theorem idx3 : ∀ t : Fin cfg0.N, (cfg0.win 3).index t 0 = t.val / 8 ∧ (cfg0.win 3).index t 1 = 0 ∧ (cfg0.win 3).index t 2 = t.val % 2 :=
  (by decide +kernel : ∀ t : Fin grid0.N, win0_3.index t 0 = t.val / 8 ∧ win0_3.index t 1 = 0 ∧ win0_3.index t 2 = t.val % 2)
theorem idx4 : ∀ t : Fin cfg0.N, (cfg0.win 4).index t 0 = t.val / 8 ∧ (cfg0.win 4).index t 1 = t.val / 2 % 4 ∧ (cfg0.win 4).index t 2 = 0 :=
  (by decide +kernel : ∀ t : Fin grid0.N, win0_4.index t 0 = t.val / 8 ∧ win0_4.index t 1 = t.val / 2 % 4 ∧ win0_4.index t 2 = 0)

end Cert.KernelIdeal.Val

end
-- ==== Proof.Spec.lean ====
/-
  The function both programs compute, stated once over the reals.

  For a batch `b`, a query row `n` and a key row `k`, the unnormalised attention weight is
  `exp (⟨x b n, x b k⟩ / 32) · μ b n · μ b k`, where `μ` is the 0/1 mask read as a real and `32 = √1024` is the
  square root of the feature extent.  The result at `(b, n, d)` is the weighted sum of the rows `x b k d` divided by
  the sum of the weights plus a small positive constant `ε`.  With every entry of `x` a real, every weight is a
  nonnegative real and the divisor is a positive real, so the quotient is an ordinary real quotient and may be
  taken inside or outside the sum over `k`.
-/
import Idealize.ShloMosaic.PureOps.Ideal
import Idealize.ShloMosaic.Lib.ValueIdx

noncomputable section

open scoped BigOperators

namespace Cert.Attn

open Idealize.ShloMosaic Idealize.ShloMosaic.ValueIdx

/-- The array shapes of the two arguments. -/
abbrev SX : Shape := ⟨3, ![8, 2048, 1024]⟩
abbrev SM : Shape := ⟨2, ![8, 2048]⟩

/-- The unnormalised weight of key row `k` for query row `n` in batch `b`. -/
def wgt (xr : Fin 8 → Fin 2048 → Fin 1024 → ℝ) (μ : Fin 8 → Fin 2048 → ℝ) (b : Fin 8) (n k : Fin 2048) : ℝ :=
  Real.exp ((∑ d : Fin 1024, xr b n d * xr b k d) * (1 / 32)) * μ b n * μ b k

/-- The normalised weighted sum of the rows, over the reals. -/
def attnR (xr : Fin 8 → Fin 2048 → Fin 1024 → ℝ) (μ : Fin 8 → Fin 2048 → ℝ) (ε : ℝ) (b : Fin 8) (n : Fin 2048) (d : Fin 1024) : ℝ :=
  (∑ k : Fin 2048, wgt xr μ b n k * xr b k d) / ((∑ k : Fin 2048, wgt xr μ b n k) + ε)

/-- The small constant added to the divisor, as a real: the value the single-precision pattern denotes. -/
def epsR : ℝ := (Ideal.ofBits .f32 0x33D6BF95#32).toReal

/-- The real entries of an array of extended reals (an infinite entry reads as `0`; the precondition excludes it). -/
def realsOf (x : SX.Idx → EReal) : Fin 8 → Fin 2048 → Fin 1024 → ℝ := fun b n d => (x (ix3 b n d)).toReal

/-- The mask's bits as reals. -/
def maskOf (mk : SM.Idx → BitVec 1) : Fin 8 → Fin 2048 → ℝ := fun b n => ((mk (ix2 b n)).toNat : ℝ)

/-- The result array as a function of the two argument arrays. -/
def G (x : SX.Idx → EReal) (mk : SM.Idx → BitVec 1) : SX.Idx → EReal :=
  fun i => ((attnR (realsOf x) (maskOf mk) epsR (i 0) (i 1) (i 2) : ℝ) : EReal)

theorem G_apply (x : SX.Idx → EReal) (mk : SM.Idx → BitVec 1) (b : Fin 8) (n : Fin 2048) (d : Fin 1024) :
    G x mk (ix3 b n d) = ((attnR (realsOf x) (maskOf mk) epsR b n d : ℝ) : EReal) := rfl

end Cert.Attn

end
-- ==== Proof.Forms.lean ====
/-
  The two closed forms the programs' results are first brought to, before finiteness is used.

  Both are stated on the extended reals with the very constants the programs print.  The first accumulates the
  weights and the weighted rows over the lower and the upper half of the key rows separately, adds the two halves,
  and divides once at the end; its scores are scaled by the product with the pattern of `1/32`.  The second divides
  each weight by the summed weights plus the small constant and sums the scaled rows over all key rows; its scores are
  scaled by the quotient by the square root of `1024`.  For real entries both are the specification `Cert.Attn.G`.
-/
import proofs.«132449_j53369263620547_1_alg».proof.Proof.Spec

noncomputable section

open scoped BigOperators

namespace Cert.Attn

open Idealize.ShloMosaic Idealize.ShloMosaic.ValueIdx

/-- The mask bit of row `n` of batch `b` as an extended real (`0` or `1`). -/
def maskE (mk : SM.Idx → BitVec 1) (b : Fin 8) (n : Fin 2048) : EReal := (((mk (ix2 b n)).toNat : ℝ) : EReal)

/-- The inner product of rows `n` and `k` of batch `b`, on the extended reals. -/
def dotE (x : SX.Idx → EReal) (b : Fin 8) (n k : Fin 2048) : EReal := ∑ d : Fin 1024, x (ix3 b n d) * x (ix3 b k d)

/-- The small constant of the divisor, as the programs print it. -/
def epsE : EReal := Ideal.ofBits .f32 0x33D6BF95#32

/-- The weight with the score scaled by a product (the first program's form). -/
def wMul (x : SX.Idx → EReal) (mk : SM.Idx → BitVec 1) (b : Fin 8) (n k : Fin 2048) : EReal :=
  Ideal.exp (dotE x b n k * Ideal.ofBits .f32 0x3D000000#32) * maskE mk b n * maskE mk b k

/-- The weight with the score scaled by a quotient (the second program's form). -/
def wDiv (x : SX.Idx → EReal) (mk : SM.Idx → BitVec 1) (b : Fin 8) (n k : Fin 2048) : EReal :=
  Ideal.exp (Ideal.div (dotE x b n k) (Ideal.sqrt (Ideal.ofBits .f32 0x44800000#32))) * maskE mk b n * maskE mk b k

/-- Key row `j` of the lower half, and of the upper half. -/
def lo (j : Fin 1024) : Fin 2048 := ⟨j.val, by omega⟩
def hi (j : Fin 1024) : Fin 2048 := ⟨1024 + j.val, by omega⟩

/-- Accumulate over the two halves of the key rows, divide once. -/
def splitForm (x : SX.Idx → EReal) (mk : SM.Idx → BitVec 1) (b : Fin 8) (n : Fin 2048) (d : Fin 1024) : EReal :=
  Ideal.div
    ((∑ j : Fin 1024, wMul x mk b n (lo j) * x (ix3 b (lo j) d)) + ∑ j : Fin 1024, wMul x mk b n (hi j) * x (ix3 b (hi j) d))
    (((∑ j : Fin 1024, wMul x mk b n (lo j)) + ∑ j : Fin 1024, wMul x mk b n (hi j)) + epsE)

/-- Divide each weight, then sum the scaled rows over all key rows. -/
def wholeForm (x : SX.Idx → EReal) (mk : SM.Idx → BitVec 1) (b : Fin 8) (n : Fin 2048) (d : Fin 1024) : EReal :=
  ∑ k : Fin 2048, Ideal.div (wDiv x mk b n k) ((∑ k' : Fin 2048, wDiv x mk b n k') + epsE) * x (ix3 b k d)

end Cert.Attn

end
-- ==== Proof.KernelIdeal.Blocks.lean ====
/-
  The four input blocks at a grid point, read at an index, in terms of the two argument arrays.

  The array the query and key tiles are cut from is `x` in a narrower format, which on the extended reals is `x`
  itself; the column and row masks are the mask's bits read as `0` or `1`, laid out as a column and as a row.  A
  block's element at a coordinate inside the block is the array's element at the block's index times the block's
  size plus that coordinate.
-/
import proofs.«132449_j53369263620547_1_alg».proof.Proof.KernelIdeal.Runs
import proofs.«132449_j53369263620547_1_alg».proof.Proof.KernelIdeal.Coords
import proofs.«132449_j53369263620547_1_alg».proof.Proof.Forms
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Attn

variable (m : (ℓ : Loc nD τ sig) → Buf (Elt Ideal) ℓ)

/-- The two argument arrays on core `c`. -/
abbrev X (c : Dev nD) : SX.Idx → EReal := m ((c : Thread nD τ).loc main_arg0)
abbrev MK (c : Dev nD) : SM.Idx → BitVec 1 := m ((c : Thread nD τ).loc main_arg1)

/-- The four input blocks at point `t`, at their literal types. -/
abbrev qblk (c : Dev nD) (t : Fin cfg0.N) : Vec Ideal S1x512x1024 .bf16 := iblk m c 0 t
abbrev kblk (c : Dev nD) (t : Fin cfg0.N) : Vec Ideal S1x1024x1024 .bf16 := iblk m c 1 t
abbrev qmsk (c : Dev nD) (t : Fin cfg0.N) : Vec Ideal S1x512x1 .f32 := iblk m c 2 t
abbrev kmsk (c : Dev nD) (t : Fin cfg0.N) : Vec Ideal S1x1x1024 .f32 := iblk m c 3 t

/-! ## The window arrays as the region finds them

The first host operation narrows the format of `x`, the second reads the mask's bits as floats, the third and the fourth
lay that array out as a column and as a row. -/

/-- The array of the query and key windows is `x` in the narrower format. -/
theorem v0_eq (c : Dev nD) :
    (V m c main_v0 : S8x2048x1024.Idx → EReal)
      = (truncf .bf16 (V m c main_arg0 : FVec Ideal S8x2048x1024 .f32) bitsLt_bf16_f32 : FVec Ideal S8x2048x1024 .bf16) := by
  dsimp only [V, hostOps0]; after_results

/-- The array of the column-mask window is the mask's bits as floats, laid out as a column. -/
theorem v2_eq (c : Dev nD) :
    (V m c main_v2 : S8x2048x1.Idx → EReal)
      = broadcastInDim S8x2048x1 ![0, 1] bcast_S8x2048_S8x2048x1_0_1 (uitofp (F := Ideal) .f32 (V m c main_arg1 : IVec S8x2048 1)) := by
  dsimp only [V, hostOps0]; after_results

/-- The array of the row-mask window is the mask's bits as floats, laid out as a row. -/
theorem v3_eq (c : Dev nD) :
    (V m c main_v3 : S8x1x2048.Idx → EReal)
      = broadcastInDim S8x1x2048 ![0, 2] bcast_S8x2048_S8x1x2048_0_2 (uitofp (F := Ideal) .f32 (V m c main_arg1 : IVec S8x2048 1)) := by
  dsimp only [V, hostOps0]; after_results

/-- On the extended reals the change of format is the identity: the array is `x`. -/
theorem v0_at (c : Dev nD) (i : S8x2048x1024.Idx) : (V m c main_v0 : S8x2048x1024.Idx → EReal) i = X m c i := by
  rw [v0_eq, truncf_apply, V_main_arg0]

/-- The column array at `(b, n, 0)` is the mask's bit at `(b, n)` as `0` or `1`. -/
theorem v2_at (c : Dev nD) (b : Fin 8) (n : Fin 2048) (z : Fin 1) :
    (V m c main_v2 : S8x2048x1.Idx → EReal) (ix3 b n z) = maskE (MK m c) b n := by
  rw [v2_eq, broadcastInDim_apply _ bcast_S8x2048_S8x2048x1_0_1 _ (ix3 b n z) (ix2 b n) (fun a => match a with
    | ⟨0, _⟩ => by show b.val = if (8 : Nat) = 1 then 0 else b.val; rw [if_neg (by decide)]
    | ⟨1, _⟩ => by show n.val = if (2048 : Nat) = 1 then 0 else n.val; rw [if_neg (by decide)])]
  rw [V_main_arg1]
  rfl

/-- The row array at `(b, 0, n)` is the mask's bit at `(b, n)` as `0` or `1`. -/
theorem v3_at (c : Dev nD) (b : Fin 8) (z : Fin 1) (n : Fin 2048) :
    (V m c main_v3 : S8x1x2048.Idx → EReal) (ix3 b z n) = maskE (MK m c) b n := by
  rw [v3_eq, broadcastInDim_apply _ bcast_S8x2048_S8x1x2048_0_2 _ (ix3 b z n) (ix2 b n) (fun a => match a with
    | ⟨0, _⟩ => by show b.val = if (8 : Nat) = 1 then 0 else b.val; rw [if_neg (by decide)]
    | ⟨1, _⟩ => by show n.val = if (2048 : Nat) = 1 then 0 else n.val; rw [if_neg (by decide)])]
  rw [V_main_arg1]
  rfl

/-! ## The block indices, over the windows by name -/

theorem idx0' (t : Fin cfg0.N) : win0_0.index t (0 : Fin 3) = t.val / 8 ∧ win0_0.index t (1 : Fin 3) = t.val / 2 % 4 ∧ win0_0.index t (2 : Fin 3) = 0 :=
  idx0 t
theorem idx1' (t : Fin cfg0.N) : win0_1.index t (0 : Fin 3) = t.val / 8 ∧ win0_1.index t (1 : Fin 3) = t.val % 2 ∧ win0_1.index t (2 : Fin 3) = 0 :=
  idx1 t
theorem idx2' (t : Fin cfg0.N) : win0_2.index t (0 : Fin 3) = t.val / 8 ∧ win0_2.index t (1 : Fin 3) = t.val / 2 % 4 ∧ win0_2.index t (2 : Fin 3) = 0 :=
  idx2 t
theorem idx3' (t : Fin cfg0.N) : win0_3.index t (0 : Fin 3) = t.val / 8 ∧ win0_3.index t (1 : Fin 3) = 0 ∧ win0_3.index t (2 : Fin 3) = t.val % 2 :=
  idx3 t

/-! ## Where a block's coordinate lies in its array

On every axis the array coordinate is the block's index times the block's size plus the coordinate inside the block. -/

theorem emb0 (t : Fin cfg0.N) (r : Fin 512) (d : Fin 1024) :
    ((cfg0.win 0).blk t).view.emb (ix3 (0 : Fin 1) r d) = ix3 (bOf t) (qrow t r) d := by
  obtain ⟨e0, e1, e2⟩ := idx0' t
  funext a; apply Fin.ext
  match a with
  | ⟨0, _⟩ => show win0_0.index t (0 : Fin 3) * 1 + 1 * 0 = t.val / 8; omega
  | ⟨1, _⟩ => show win0_0.index t (1 : Fin 3) * 512 + 1 * r.val = t.val / 2 % 4 * 512 + r.val; omega
  | ⟨2, _⟩ => show win0_0.index t (2 : Fin 3) * 1024 + 1 * d.val = d.val; omega

theorem emb1 (t : Fin cfg0.N) (j : Fin 1024) (d : Fin 1024) :
    ((cfg0.win 1).blk t).view.emb (ix3 (0 : Fin 1) j d) = ix3 (bOf t) (krow t j) d := by
  obtain ⟨e0, e1, e2⟩ := idx1' t
  funext a; apply Fin.ext
  match a with
  | ⟨0, _⟩ => show win0_1.index t (0 : Fin 3) * 1 + 1 * 0 = t.val / 8; omega
  | ⟨1, _⟩ => show win0_1.index t (1 : Fin 3) * 1024 + 1 * j.val = t.val % 2 * 1024 + j.val; omega
  | ⟨2, _⟩ => show win0_1.index t (2 : Fin 3) * 1024 + 1 * d.val = d.val; omega

theorem emb2 (t : Fin cfg0.N) (r : Fin 512) :
    ((cfg0.win 2).blk t).view.emb (ix3 (0 : Fin 1) r (0 : Fin 1)) = ix3 (bOf t) (qrow t r) (0 : Fin 1) := by
  obtain ⟨e0, e1, e2⟩ := idx2' t
  funext a; apply Fin.ext
  match a with
  | ⟨0, _⟩ => show win0_2.index t (0 : Fin 3) * 1 + 1 * 0 = t.val / 8; omega
  | ⟨1, _⟩ => show win0_2.index t (1 : Fin 3) * 512 + 1 * r.val = t.val / 2 % 4 * 512 + r.val; omega
  | ⟨2, _⟩ => show win0_2.index t (2 : Fin 3) * 1 + 1 * 0 = 0; omega

theorem emb3 (t : Fin cfg0.N) (j : Fin 1024) :
    ((cfg0.win 3).blk t).view.emb (ix3 (0 : Fin 1) (0 : Fin 1) j) = ix3 (bOf t) (0 : Fin 1) (krow t j) := by
  obtain ⟨e0, e1, e2⟩ := idx3' t
  funext a; apply Fin.ext
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 1024 + 1 * j.val = t.val % 2 * 1024 + j.val; omega

/-! ## The four blocks at an index -/

theorem qblk_at (c : Dev nD) (t : Fin cfg0.N) (r : Fin 512) (d : Fin 1024) :
    qblk m c t (ix3 0 r d) = X m c (ix3 (bOf t) (qrow t r) d) := by
  show (V m c main_v0 : S8x2048x1024.Idx → EReal) (((cfg0.win 0).blk t).view.emb (ix3 (0 : Fin 1) r d)) = _
  rw [emb0, v0_at]

theorem kblk_at (c : Dev nD) (t : Fin cfg0.N) (j : Fin 1024) (d : Fin 1024) :
    kblk m c t (ix3 0 j d) = X m c (ix3 (bOf t) (krow t j) d) := by
  show (V m c main_v0 : S8x2048x1024.Idx → EReal) (((cfg0.win 1).blk t).view.emb (ix3 (0 : Fin 1) j d)) = _
  rw [emb1, v0_at]

theorem qmsk_at (c : Dev nD) (t : Fin cfg0.N) (r : Fin 512) :
    qmsk m c t (ix3 0 r 0) = maskE (MK m c) (bOf t) (qrow t r) := by
  show (V m c main_v2 : S8x2048x1.Idx → EReal) (((cfg0.win 2).blk t).view.emb (ix3 (0 : Fin 1) r (0 : Fin 1))) = _
  rw [emb2, v2_at]

theorem kmsk_at (c : Dev nD) (t : Fin cfg0.N) (j : Fin 1024) :
    kmsk m c t (ix3 0 0 j) = maskE (MK m c) (bOf t) (krow t j) := by
  show (V m c main_v3 : S8x1x2048.Idx → EReal) (((cfg0.win 3).blk t).view.emb (ix3 (0 : Fin 1) (0 : Fin 1) j)) = _
  rw [emb3, v3_at]

end Cert.KernelIdeal.Val

end
-- ==== Proof.FormsEq.lean ====
/-
  The two closed forms agree with the specification when every entry of `x` is a real.

  With real entries the inner product of two rows is the coercion of a real sum.  The pattern `0x3D000000` denotes
  `2⁻⁵ = 1/32` and the pattern `0x44800000` denotes `1024 = 32²`, whose square root is `32`; so the product of a
  score by the first and its quotient by the square root of the second are the same real.  The exponential of a real
  is a positive real and a mask bit is `0` or `1`, so every weight is the coercion of the nonnegative real
  `wgt`.  The small constant `0x33D6BF95` denotes a positive real, so the summed weights plus that constant is a
  positive real and the quotient by it is the real quotient.  A sum over the `2048` key rows is the sum over the
  lower `1024` rows plus the sum over the upper `1024` rows, and `(∑ wₖ xₖ) / c = ∑ (wₖ / c) xₖ` over the reals.
-/
import proofs.«132449_j53369263620547_1_alg».proof.Proof.Forms
import Mathlib.Data.EReal.Basic
import Mathlib.Analysis.Real.Sqrt
import Mathlib.Analysis.Complex.Exponential
import Mathlib.Algebra.BigOperators.Fin
import Mathlib.Algebra.BigOperators.Field

noncomputable section

open scoped BigOperators

namespace Cert.Attn

open Idealize.ShloMosaic Idealize.ShloMosaic.ValueIdx

/-- The pattern `0x3D000000` denotes `2⁻⁵ = 1/32`. -/
theorem ofBits_inv32 : Ideal.ofBits .f32 0x3D000000#32 = ((1 / 32 : ℝ) : EReal) := by
  simp [Ideal.ofBits, Ideal.ieee, -EReal.coe_mul]; norm_num

/-- The pattern `0x44800000` denotes `2¹⁰ = 1024`. -/
theorem ofBits_1024 : Ideal.ofBits .f32 0x44800000#32 = ((1024 : ℝ) : EReal) := by
  simp [Ideal.ofBits, Ideal.ieee, -EReal.coe_mul]; norm_num

/-- The pattern `0x33D6BF95` denotes a positive real. -/
theorem ofBits_eps : ∃ r : ℝ, 0 < r ∧ Ideal.ofBits .f32 0x33D6BF95#32 = (r : EReal) := by
  simp [Ideal.ofBits, Ideal.ieee, -EReal.coe_mul]

/-- The small constant of the divisor is positive. -/
theorem epsR_pos : 0 < epsR := by
  obtain ⟨r, hr, h⟩ := ofBits_eps
  rw [epsR, h, EReal.toReal_coe]; exact hr

/-- The small constant on the extended reals is the coercion of the real one. -/
theorem epsE_eq : epsE = ((epsR : ℝ) : EReal) := by
  obtain ⟨r, _, h⟩ := ofBits_eps
  rw [epsE, epsR, h, EReal.toReal_coe]

/-- The square root of `1024 = 32²` is `32`. -/
theorem sqrt_1024 : Ideal.sqrt (Ideal.ofBits .f32 0x44800000#32) = ((32 : ℝ) : EReal) := by
  have h : Real.sqrt 1024 = 32 := by
    rw [show (1024 : ℝ) = 32 ^ 2 by norm_num]
    exact Real.sqrt_sq (by norm_num)
  rw [ofBits_1024, Ideal.sqrt_coe, if_neg (by norm_num), h]

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `2048 = 1024 + 1024` rows is the sum over the lower half plus the sum over the upper half. -/
theorem sum_halves {M : Type*} [AddCommMonoid M] (f : Fin 2048 → M) :
    ∑ k : Fin 2048, f k = (∑ j : Fin 1024, f (lo j)) + ∑ j : Fin 1024, f (hi j) := by
  have h := Fin.sum_univ_add (a := 1024) (b := 1024) f
  exact h

/-- Under the finiteness hypothesis every entry is the coercion of its real part. -/
theorem x_eq (x : SX.Idx → EReal) (hfin : ∀ j, ∃ r : ℝ, x j = (r : EReal)) (b : Fin 8) (n : Fin 2048) (d : Fin 1024) :
    x (ix3 b n d) = ((realsOf x b n d : ℝ) : EReal) := by
  obtain ⟨r, hr⟩ := hfin (ix3 b n d)
  rw [realsOf, hr, EReal.toReal_coe]

/-- With real entries the inner product of two rows is the coercion of the real inner product. -/
theorem dotE_eq (x : SX.Idx → EReal) (hfin : ∀ j, ∃ r : ℝ, x j = (r : EReal)) (b : Fin 8) (n k : Fin 2048) :
    dotE x b n k = ((∑ d : Fin 1024, realsOf x b n d * realsOf x b k d : ℝ) : EReal) := by
  rw [dotE, coe_sum]
  refine Finset.sum_congr rfl fun d _ => ?_
  rw [x_eq x hfin b n d, x_eq x hfin b k d, EReal.coe_mul]

/-- The weight whose score is scaled by the product with `1/32` is the coercion of the real weight. -/
theorem wMul_eq (x : SX.Idx → EReal) (mk : SM.Idx → BitVec 1) (hfin : ∀ j, ∃ r : ℝ, x j = (r : EReal))
    (b : Fin 8) (n k : Fin 2048) :
    wMul x mk b n k = ((wgt (realsOf x) (maskOf mk) b n k : ℝ) : EReal) := by
  rw [wMul, wgt, dotE_eq x hfin, ofBits_inv32, ← EReal.coe_mul, Ideal.exp_coe, maskE, maskE,
    ← EReal.coe_mul, ← EReal.coe_mul]
  rfl

/-- The weight whose score is scaled by the quotient by `√1024 = 32` is the coercion of the same real weight. -/
theorem wDiv_eq (x : SX.Idx → EReal) (mk : SM.Idx → BitVec 1) (hfin : ∀ j, ∃ r : ℝ, x j = (r : EReal))
    (b : Fin 8) (n k : Fin 2048) :
    wDiv x mk b n k = ((wgt (realsOf x) (maskOf mk) b n k : ℝ) : EReal) := by
  rw [wDiv, wgt, dotE_eq x hfin, sqrt_1024, Ideal.div_coe (by norm_num : (32 : ℝ) ≠ 0), ← EReal.coe_mul,
    Ideal.exp_coe, maskE, maskE, ← EReal.coe_mul, ← EReal.coe_mul]
  rfl

/-- A weight is a positive exponential times two mask bits, hence nonnegative. -/
theorem wgt_nonneg (xr : Fin 8 → Fin 2048 → Fin 1024 → ℝ) (mk : SM.Idx → BitVec 1) (b : Fin 8) (n k : Fin 2048) :
    0 ≤ wgt xr (maskOf mk) b n k := by
  unfold wgt maskOf
  exact mul_nonneg (mul_nonneg (Real.exp_pos _).le (Nat.cast_nonneg _)) (Nat.cast_nonneg _)

/-- The summed weights plus the small constant is positive. -/
theorem den_pos (xr : Fin 8 → Fin 2048 → Fin 1024 → ℝ) (mk : SM.Idx → BitVec 1) (b : Fin 8) (n : Fin 2048) :
    0 < (∑ k : Fin 2048, wgt xr (maskOf mk) b n k) + epsR :=
  add_pos_of_nonneg_of_pos (Finset.sum_nonneg fun k _ => wgt_nonneg xr mk b n k) epsR_pos

/-- The form that accumulates over the two halves and divides once is the specification. -/
theorem splitForm_eq_G (x : SX.Idx → EReal) (mk : SM.Idx → BitVec 1) (hfin : ∀ j, ∃ r : ℝ, x j = (r : EReal)) (b : Fin 8) (n : Fin 2048) (d : Fin 1024) :
    splitForm x mk b n d = G x mk (ix3 b n d) := by
  have hnum : ((∑ j : Fin 1024, wMul x mk b n (lo j) * x (ix3 b (lo j) d)) + ∑ j : Fin 1024, wMul x mk b n (hi j) * x (ix3 b (hi j) d))
      = ((∑ k : Fin 2048, wgt (realsOf x) (maskOf mk) b n k * realsOf x b k d : ℝ) : EReal) := by
    rw [coe_sum, sum_halves]
    refine congrArg₂ (· + ·) (Finset.sum_congr rfl fun j _ => ?_) (Finset.sum_congr rfl fun j _ => ?_)
    · rw [wMul_eq x mk hfin, x_eq x hfin, EReal.coe_mul]
    · rw [wMul_eq x mk hfin, x_eq x hfin, EReal.coe_mul]
  have hden : (((∑ j : Fin 1024, wMul x mk b n (lo j)) + ∑ j : Fin 1024, wMul x mk b n (hi j)) + epsE)
      = (((∑ k : Fin 2048, wgt (realsOf x) (maskOf mk) b n k) + epsR : ℝ) : EReal) := by
    rw [EReal.coe_add, coe_sum, sum_halves, epsE_eq]
    refine congrArg (· + _) (congrArg₂ (· + ·) (Finset.sum_congr rfl fun j _ => ?_) (Finset.sum_congr rfl fun j _ => ?_))
    · rw [wMul_eq x mk hfin]
    · rw [wMul_eq x mk hfin]
  rw [splitForm, hnum, hden, Ideal.div_coe (den_pos (realsOf x) mk b n).ne', ← EReal.coe_mul, G_apply, attnR,
    mul_one_div]

/-- The form that divides each weight and then sums over all key rows is the specification. -/
theorem wholeForm_eq_G (x : SX.Idx → EReal) (mk : SM.Idx → BitVec 1) (hfin : ∀ j, ∃ r : ℝ, x j = (r : EReal)) (b : Fin 8) (n : Fin 2048) (d : Fin 1024) :
    wholeForm x mk b n d = G x mk (ix3 b n d) := by
  have hden : ((∑ k' : Fin 2048, wDiv x mk b n k') + epsE)
      = (((∑ k : Fin 2048, wgt (realsOf x) (maskOf mk) b n k) + epsR : ℝ) : EReal) := by
    have hs : (∑ k' : Fin 2048, wDiv x mk b n k') = ∑ k : Fin 2048, ((wgt (realsOf x) (maskOf mk) b n k : ℝ) : EReal) :=
      Finset.sum_congr rfl fun k _ => wDiv_eq x mk hfin b n k
    rw [hs, EReal.coe_add, coe_sum, epsE_eq]
  rw [wholeForm, hden, G_apply, attnR, Finset.sum_div, coe_sum]
  refine Finset.sum_congr rfl fun k _ => ?_
  rw [Ideal.div_coe (den_pos (realsOf x) mk b n).ne', wDiv_eq x mk hfin, x_eq x hfin, ← EReal.coe_mul, ← EReal.coe_mul]
  rw [mul_one_div, div_mul_eq_mul_div]

end Cert.Attn

end
-- ==== Proof.KernelIdeal.Value.lean ====
/-
  The output array after the kernel's run is the specification of the two argument arrays.

  Positions come in pairs: an even position resets the accumulators and leaves in them the sums over the lower half of
  the key rows; the odd position after it adds the sums over the upper half and stores the quotient of the summed
  weighted rows by the summed weights plus the small constant — the form `Cert.Attn.splitForm` at the batch and
  query row of the point.  Every index of the output array lies in the block of exactly such an odd position, so the
  array ends at that form everywhere, which for real entries is the specification.
-/
import proofs.«132449_j53369263620547_1_alg».proof.Proof.KernelIdeal.Pieces
import proofs.«132449_j53369263620547_1_alg».proof.Proof.KernelIdeal.PayIdx
import proofs.«132449_j53369263620547_1_alg».proof.Proof.KernelIdeal.Blocks
import proofs.«132449_j53369263620547_1_alg».proof.Proof.FormsEq

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.Attn

variable (m : (ℓ : Loc nD τ sig) → Buf (Elt Ideal) ℓ)

/-! ## The body's values over a point's blocks -/

/-- The weight the body computes from the blocks at `t` is the specification's weight of the block's rows. -/
theorem wBlk_eq (c : Dev nD) (t : Fin cfg0.N) (r : Fin 512) (j : Fin 1024) :
    wBlk (qblk m c t) (kblk m c t) (qmsk m c t) (kmsk m c t) r j = wMul (X m c) (MK m c) (bOf t) (qrow t r) (krow t j) := by
  unfold wBlk wMul dotE
  rw [qmsk_at, kmsk_at]
  simp only [qblk_at, kblk_at]

/-- The stored quotient, from the accumulators' previous contents and the blocks. -/
theorem quot_at (x0 : Vec Ideal S1x512x1024 .bf16) (x1 : Vec Ideal S1x1024x1024 .bf16) (x2 : Vec Ideal S1x512x1 .f32) (x3 : Vec Ideal S1x1x1024 .f32)
    (xs0 : Vec Ideal S512x1 .f32) (xs1 : Vec Ideal S512x1024 .f32) (r : Fin 512) (d : Fin 1024) :
    k0_pay2 (F := Ideal) (k0_pay1 (k0_pay8 x0 x1 x2 x3 xs1)) (k0_pay7 x0 x1 x2 x3 xs0) (ix3 0 r d)
      = Ideal.div (xs1 (ix2 r d) + ∑ j : Fin 1024, wBlk x0 x1 x2 x3 r j * x1 (ix3 0 j d))
          ((xs0 (ix2 r 0) + ∑ j : Fin 1024, wBlk x0 x1 x2 x3 r j) + Ideal.ofBits .f32 0x33D6BF95#32) := by
  rw [pay2_at, pay1_eq, pay8_at, pay7_at]

/-! ## The accumulators after an even position -/

theorem acc_even (c : Dev nD) (t : Fin cfg0.N) (h0 : t.val % 2 = 0) (r : Fin 512) :
    (outsAt0 m c t.val t.isLt).2.1 (ix2 r 0) = ∑ j : Fin 1024, wMul (X m c) (MK m c) (bOf t) (qrow t r) (krow t j) := by
  rw [outsAt0_A m c t h0]
  dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t)) (ix2 r 0)).trans ?_
  refine (pay7_at (qblk m c t) (kblk m c t) (qmsk m c t) (kmsk m c t) (k0_pay3 (F := Ideal)) r).trans ?_
  rw [pay3_at, zero_add]
  exact Finset.sum_congr rfl (fun j _ => wBlk_eq m c t r j)

theorem rows_even (c : Dev nD) (t : Fin cfg0.N) (h0 : t.val % 2 = 0) (r : Fin 512) (d : Fin 1024) :
    (outsAt0 m c t.val t.isLt).2.2 (ix2 r d)
      = ∑ j : Fin 1024, wMul (X m c) (MK m c) (bOf t) (qrow t r) (krow t j) * X m c (ix3 (bOf t) (krow t j) d) := by
  rw [outsAt0_A m c t h0]
  dsimp only
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t)) (ix2 r d)).trans ?_
  refine (congrFun (pay1_eq _) (ix2 r d)).trans ?_
  refine (pay8_at (qblk m c t) (kblk m c t) (qmsk m c t) (kmsk m c t) (k0_pay4 (F := Ideal)) r d).trans ?_
  rw [pay4_at, zero_add]
  exact Finset.sum_congr rfl (fun j _ => by rw [wBlk_eq, kblk_at])

theorem acc_even' (c : Dev nD) (n : ℕ) (hn : n < cfg0.N) (h0 : n % 2 = 0) (r : Fin 512) :
    (outsAt0 m c n hn).2.1 (ix2 r 0) = ∑ j : Fin 1024, wMul (X m c) (MK m c) (bOf ⟨n, hn⟩) (qrow ⟨n, hn⟩ r) (krow ⟨n, hn⟩ j) :=
  acc_even m c ⟨n, hn⟩ h0 r

theorem rows_even' (c : Dev nD) (n : ℕ) (hn : n < cfg0.N) (h0 : n % 2 = 0) (r : Fin 512) (d : Fin 1024) :
    (outsAt0 m c n hn).2.2 (ix2 r d)
      = ∑ j : Fin 1024, wMul (X m c) (MK m c) (bOf ⟨n, hn⟩) (qrow ⟨n, hn⟩ r) (krow ⟨n, hn⟩ j) * X m c (ix3 (bOf ⟨n, hn⟩) (krow ⟨n, hn⟩ j) d) :=
  rows_even m c ⟨n, hn⟩ h0 r d

/-! ## The output's buffer after an odd position -/

theorem out_odd (c : Dev nD) (t : Fin cfg0.N) (h0 : ¬t.val % 2 = 0) (r : Fin 512) (d : Fin 1024) :
    (outsAt0 m c t.val t.isLt).1 (ix3 0 r d) = splitForm (X m c) (MK m c) (bOf t) (qrow t r) d := by
  have hN := N_lt t
  have h1 : (t.val - 1) % 2 = 0 := by omega
  have hb : ∀ hp, bOf ⟨t.val - 1, hp⟩ = bOf t := fun hp => Fin.ext (by simp only [bOf]; omega)
  have hq : ∀ hp r, qrow ⟨t.val - 1, hp⟩ r = qrow t r := fun hp r => Fin.ext (by simp only [qrow]; omega)
  have hlo : ∀ hp j, krow ⟨t.val - 1, hp⟩ j = lo j := fun hp j => Fin.ext (by simp only [krow, lo]; omega)
  have hhi : ∀ j, krow t j = hi j := fun j => Fin.ext (by simp only [krow, hi]; omega)
  rw [outsAt0_B m c t h0]
  dsimp only
  refine (congrFun (out0_B_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (iblk m c 0 t) (iblk m c 1 t) (iblk m c 2 t) (iblk m c 3 t) _ _) (ix3 0 r d)).trans ?_
  refine (quot_at (qblk m c t) (kblk m c t) (qmsk m c t) (kmsk m c t) _ _ r d).trans ?_
  rw [acc_even' m c (t.val - 1) _ h1 r, rows_even' m c (t.val - 1) _ h1 r d]
  unfold splitForm epsE
  simp only [wBlk_eq, kblk_at, hb, hq, hlo, hhi]

/-! ## From blocks to the array -/

/-- The array the output window's blocks are blocks of. -/
def GA (c : Dev nD) : SX.Idx → EReal := fun i => splitForm (X m c) (MK m c) (i 0) (i 1) (i 2)

theorem idx4' (t : Fin cfg0.N) : win0_4.index t (0 : Fin 3) = t.val / 8 ∧ win0_4.index t (1 : Fin 3) = t.val / 2 % 4 ∧ win0_4.index t (2 : Fin 3) = 0 :=
  idx4 t

/-- What a flushing position writes back is its block of `GA`. -/
theorem flushed4_eq (c : Dev nD) (t : Fin cfg0.N) (hf : (cfg0.win 4).flush t = true) :
    (dats m 0 c).flushed 4 t = ((cfg0.win 4).blk t).view.read (Elt Ideal) (GA m c) := by
  have h0 : ¬t.val % 2 = 0 := by have := (flush0_4 t).mp hf; omega
  show (cfg0.win 4).cut (grid0.coords t) ((dats m 0 c).after 4 t) = _
  rw [after0_4]
  funext y
  obtain ⟨z, r, d, rfl⟩ : ∃ (z : Fin 1) (r : Fin 512) (d : Fin 1024), y = ix3 z r d := ⟨y 0, y 1, y 2, eq_ix3 y⟩
  obtain rfl : z = 0 := Subsingleton.elim _ _
  show (outsAt0 m c t.val t.isLt).1 (ix3 0 r d) = GA m c (((cfg0.win 4).blk t).view.emb (ix3 0 r d))
  rw [out_odd m c t h0 r d]
  obtain ⟨e0, e1, e2⟩ := idx4' t
  have e : ((cfg0.win 4).blk t).view.emb (ix3 (0 : Fin 1) r d) = ix3 (bOf t) (qrow t r) d := by
    funext a; apply Fin.ext
    match a with
    | ⟨0, _⟩ => show win0_4.index t (0 : Fin 3) * 1 + 1 * 0 = t.val / 8; omega
    | ⟨1, _⟩ => show win0_4.index t (1 : Fin 3) * 512 + 1 * r.val = t.val / 2 % 4 * 512 + r.val; omega
    | ⟨2, _⟩ => show win0_4.index t (2 : Fin 3) * 1024 + 1 * d.val = d.val; omega
  rw [e]
  rfl

theorem mem_blk4 (t : Fin cfg0.N) (i : S8x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v4).slice (win0_4.rect t)).set ↔ _
  rw [View.set_slice_whole, Rect.mem_set_unit]
  exact Iff.rfl

/-- Every index of the output array is in the block of the odd position of its batch and query tile. -/
theorem cover4 (i : S8x2048x1024.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  have htv : (i 0).val * 8 + (i 1).val / 512 * 2 + 1 < cfg0.N := by rw [show cfg0.N = 64 from N_0]; omega
  refine ⟨⟨(i 0).val * 8 + (i 1).val / 512 * 2 + 1, htv⟩, (flush0_4 _).mpr (by show ((i 0).val * 8 + (i 1).val / 512 * 2 + 1) % 2 = 1; omega), ?_⟩
  rw [mem_blk4]
  obtain ⟨e0, e1, e2⟩ := idx4' ⟨(i 0).val * 8 + (i 1).val / 512 * 2 + 1, htv⟩
  simp only at e0 e1 e2
  intro a
  match a with
  | ⟨0, _⟩ => show win0_4.index ⟨(i 0).val * 8 + (i 1).val / 512 * 2 + 1, htv⟩ (0 : Fin 3) * 1 ≤ (i 0).val ∧ (i 0).val < win0_4.index ⟨(i 0).val * 8 + (i 1).val / 512 * 2 + 1, htv⟩ (0 : Fin 3) * 1 + 1; omega
  | ⟨1, _⟩ => show win0_4.index ⟨(i 0).val * 8 + (i 1).val / 512 * 2 + 1, htv⟩ (1 : Fin 3) * 512 ≤ (i 1).val ∧ (i 1).val < win0_4.index ⟨(i 0).val * 8 + (i 1).val / 512 * 2 + 1, htv⟩ (1 : Fin 3) * 512 + 512; omega
  | ⟨2, _⟩ => show win0_4.index ⟨(i 0).val * 8 + (i 1).val / 512 * 2 + 1, htv⟩ (2 : Fin 3) * 1024 ≤ (i 2).val ∧ (i 2).val < win0_4.index ⟨(i 0).val * 8 + (i 1).val / 512 * 2 + 1, htv⟩ (2 : Fin 3) * 1024 + 1024; omega

/-- The output array after every write-back. -/
theorem final4 (c : Dev nD) : (dats m 0 c).arrAt 4 cfg0.N = GA m c :=
  (dats m 0 c).arrAt_eq_of_cover 4 (GA m c) (fun t hf => flushed4_eq m c t hf) cover4

/-- For real entries the two-half form is the specification. -/
theorem GA_eq_G (c : Dev nD) (hfin : ∀ j, ∃ r : ℝ, X m c j = (r : EReal)) : GA m c = G (X m c) (MK m c) :=
  funext fun i => by
    obtain ⟨b, n, d, rfl⟩ : ∃ (b : Fin 8) (n : Fin 2048) (d : Fin 1024), i = ix3 b n d := ⟨i 0, i 1, i 2, eq_ix3 i⟩
    exact splitForm_eq_G (X m c) (MK m c) hfin b n d

end Cert.KernelIdeal.Val

end
-- ==== Proof.KernelIdeal.ValueRun.lean ====
/-
  The idealized kernel's run, read: the result array ends at the specification of the two argument arrays, and the
  arguments end unchanged.
-/
import proofs.«132449_j53369263620547_1_alg».proof.Proof.KernelIdeal.Main
import proofs.«132449_j53369263620547_1_alg».proof.Proof.KernelIdeal.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Attn

/-- For real entries of `x`: every weakly fair execution terminates with the result array at `G` of the arguments. -/
theorem run (m : (ℓ : Loc nD τ sig) → Buf (Elt Ideal) ℓ) (ρ : Dev nD → PrngReg)
    (hfin : ∀ (c : Dev nD) j, ∃ r : ℝ, X m c j = (r : EReal)) :
    θ_run (defs (F := Ideal)) (onTc (τ := τ) (main (F := Ideal))) ⟨m, fun _ => 0, ρ⟩ fun r => ∀ c : Dev nD,
      r.2.mem ((c.tc : Thread nD τ).loc main_v4) = G (X m c) (MK m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans ((final4 m c).trans (GA_eq_G m c (hfin c))),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (Fr.run_main m ρ)

end Cert.KernelIdeal.Val

end
-- ==== Proof.RefValue.lean ====
/-
  The reference program's result read at an index.

  For batch `b`, query row `n` and key row `k` the reference forms the weight
  `exp (⟨x b n, x b k⟩ / √1024) · μ b n · μ b k` (`μ` the mask read as `0` or `1`), divides it by the row's summed
  weights plus the small constant, and contracts the quotients with the rows `x b k d` over `k`.  Reading its
  operations one at a time at explicit coordinates gives exactly `Cert.Attn.wholeForm`: the layout operations only
  move coordinates, the elementwise ones act entry by entry, and the two contractions and the row sum are finite sums
  over the contracted coordinate.  Nothing about finiteness of the entries is used.
-/
import proofs.«132449_j53369263620547_1_alg».proof.Proof.Gen.ReferenceIdeal.Run
import proofs.«132449_j53369263620547_1_alg».proof.Proof.Gen.ReferenceIdeal.Read
import proofs.«132449_j53369263620547_1_alg».proof.Proof.Spec
import proofs.«132449_j53369263620547_1_alg».proof.Proof.Forms

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Attn

/-! ## The operations' index maps at explicit coordinates

Each layout operation and each contraction reads its operand at an index computed from the result's index; at an
index given by coordinates that index is again given by coordinates. -/

/-- The first contraction reads its left operand at row `n`, feature `d`. -/
theorem lidx_v0 (b : Fin 8) (n k : Fin 2048) (d : Fin 1024) :
    lidx_main_v0 (ix3 b n k) d = ix3 b n d :=
  funext fun a => Fin.ext (by match a with | ⟨0, _⟩ => rfl | ⟨1, _⟩ => rfl | ⟨2, _⟩ => rfl)

/-- The first contraction reads its right operand at row `k`, feature `d`. -/
theorem ridx_v0 (b : Fin 8) (n k : Fin 2048) (d : Fin 1024) :
    ridx_main_v0 (ix3 b n k) d = ix3 b k d :=
  funext fun a => Fin.ext (by match a with | ⟨0, _⟩ => rfl | ⟨1, _⟩ => rfl | ⟨2, _⟩ => rfl)

/-- The query-side mask, spread along the key axis, is read at `(b, n, 0)` … -/
theorem idx_v7 (b : Fin 8) (n k : Fin 2048) :
    idx_main_v7 (ix3 b n k) = ix3 b n (0 : Fin 1) :=
  funext fun a => Fin.ext (by match a with | ⟨0, _⟩ => rfl | ⟨1, _⟩ => rfl | ⟨2, _⟩ => rfl)

/-- … and that at `(b, n)`. -/
theorem idx_v6 (b : Fin 8) (n : Fin 2048) :
    idx_main_v6 (ix3 b n (0 : Fin 1)) = ix2 b n :=
  funext fun a => Fin.ext (by match a with | ⟨0, _⟩ => rfl | ⟨1, _⟩ => rfl)

/-- The key-side mask, spread along the query axis, is read at `(b, 0, k)` … -/
theorem idx_v10 (b : Fin 8) (n k : Fin 2048) :
    idx_main_v10 (ix3 b n k) = ix3 b (0 : Fin 1) k :=
  funext fun a => Fin.ext (by match a with | ⟨0, _⟩ => rfl | ⟨1, _⟩ => rfl | ⟨2, _⟩ => rfl)

/-- … and that at `(b, k)`. -/
theorem idx_v9 (b : Fin 8) (k : Fin 2048) :
    idx_main_v9 (ix3 b (0 : Fin 1) k) = ix2 b k :=
  funext fun a => Fin.ext (by match a with | ⟨0, _⟩ => rfl | ⟨1, _⟩ => rfl)

/-- The row sum at `(b, n)` runs over the weights at `(b, n, k)`. -/
theorem idx_v12 (b : Fin 8) (n k : Fin 2048) :
    idx_main_v12 (ix2 b n) k = ix3 b n k :=
  funext fun a => Fin.ext (by match a with | ⟨0, _⟩ => rfl | ⟨1, _⟩ => rfl | ⟨2, _⟩ => rfl)

/-- The divisor, spread along the key axis, is read at `(b, n, 0)` … -/
theorem idx_v16 (b : Fin 8) (n k : Fin 2048) :
    idx_main_v16 (ix3 b n k) = ix3 b n (0 : Fin 1) :=
  funext fun a => Fin.ext (by match a with | ⟨0, _⟩ => rfl | ⟨1, _⟩ => rfl | ⟨2, _⟩ => rfl)

/-- … and the row sum inside it at `(b, n)`. -/
theorem idx_v13 (b : Fin 8) (n : Fin 2048) :
    idx_main_v13 (ix3 b n (0 : Fin 1)) = ix2 b n :=
  funext fun a => Fin.ext (by match a with | ⟨0, _⟩ => rfl | ⟨1, _⟩ => rfl)

/-- The second contraction reads the normalised weight at `(b, n, k)` … -/
theorem lidx_v18 (b : Fin 8) (n k : Fin 2048) (d : Fin 1024) :
    lidx_main_v18 (ix3 b n d) k = ix3 b n k :=
  funext fun a => Fin.ext (by match a with | ⟨0, _⟩ => rfl | ⟨1, _⟩ => rfl | ⟨2, _⟩ => rfl)

/-- … and the row entry at `(b, k, d)`. -/
theorem ridx_v18 (b : Fin 8) (n k : Fin 2048) (d : Fin 1024) :
    ridx_main_v18 (ix3 b n d) k = ix3 b k d :=
  funext fun a => Fin.ext (by match a with | ⟨0, _⟩ => rfl | ⟨1, _⟩ => rfl | ⟨2, _⟩ => rfl)

/-! ## The stages at coordinates -/

variable (x : (⟨S8x2048x1024, .f32⟩ : BufTy).Contents (Elt Ideal))
  (mk : (⟨S8x2048, .i1⟩ : BufTy).Contents (Elt Ideal))

/-- The scaled score: the inner product of rows `n` and `k` divided by the square root of the feature extent. -/
theorem v3_at (b : Fin 8) (n k : Fin 2048) :
    val_main_v3 (F := Ideal) x (ix3 b n k)
      = Ideal.div (dotE x b n k) (Ideal.sqrt (Ideal.ofBits .f32 0x44800000#32)) := by
  rw [val_main_v3_apply, val_main_v0_apply, val_main_v2_apply, val_main_v1_apply, val_main_cst_apply]
  simp only [lidx_v0, ridx_v0, Ideal.hostDivf_def, Ideal.hostUnary_sqrt_def, Ideal.ofBits_def]
  rfl

/-- The query-side mask entry. -/
theorem v7_at (b : Fin 8) (n k : Fin 2048) :
    val_main_v7 (F := Ideal) mk (ix3 b n k) = maskE mk b n := by
  rw [val_main_v7_apply, idx_v7, val_main_v6_apply, idx_v6, val_main_v5_apply]
  rfl

/-- The key-side mask entry. -/
theorem v10_at (b : Fin 8) (n k : Fin 2048) :
    val_main_v10 (F := Ideal) mk (ix3 b n k) = maskE mk b k := by
  rw [val_main_v10_apply, idx_v10, val_main_v9_apply, idx_v9, val_main_v5_apply]
  rfl

/-- The masked weight of key row `k` for query row `n`. -/
theorem v11_at (b : Fin 8) (n k : Fin 2048) :
    val_main_v11 (F := Ideal) x mk (ix3 b n k) = wDiv x mk b n k := by
  rw [val_main_v11_apply, val_main_v8_apply, val_main_v4_apply, v3_at, v7_at, v10_at]
  simp only [Ideal.mulf_def, Ideal.hostUnary_exp_def]
  rfl

/-- The row sum of the weights: the zero it starts from adds nothing. -/
theorem v12_at (b : Fin 8) (n : Fin 2048) :
    val_main_v12 (F := Ideal) x mk (ix2 b n) = ∑ k : Fin 2048, wDiv x mk b n k := by
  rw [val_main_v12_apply, val_main_cst_0_apply]
  simp only [idx_v12, v11_at, Ideal.ofBits_def, Ideal.ofBits_zero_f32, zero_add]

/-- The divisor: the row sum plus the small constant, the same for every key row. -/
theorem v16_at (b : Fin 8) (n k : Fin 2048) :
    val_main_v16 (F := Ideal) x mk (ix3 b n k) = (∑ k' : Fin 2048, wDiv x mk b n k') + epsE := by
  rw [val_main_v16_apply, idx_v16, val_main_v15_apply, val_main_v13_apply, idx_v13, v12_at,
    val_main_v14_apply, val_main_cst_1_apply]
  simp only [Ideal.addf_def, Ideal.ofBits_def]
  rfl

/-- The normalised weight. -/
theorem v17_at (b : Fin 8) (n k : Fin 2048) :
    val_main_v17 (F := Ideal) x mk (ix3 b n k)
      = Ideal.div (wDiv x mk b n k) ((∑ k' : Fin 2048, wDiv x mk b n k') + epsE) := by
  rw [val_main_v17_apply, v11_at, v16_at]
  rfl

/-- The reference's result at `(b, n, d)`: the normalised weights contracted with the rows over the key rows. -/
theorem ref_wholeForm (b : Fin 8) (n : Fin 2048) (d : Fin 1024) :
    val_main_v18 (F := Ideal) x mk (ValueIdx.ix3 b n d) = Cert.Attn.wholeForm x mk b n d := by
  rw [val_main_v18_apply]
  simp only [lidx_v18, ridx_v18, v17_at]
  rfl

end Cert.ReferenceIdeal.RefValue

end
-- ==== Proof.Finite.lean ====
/-
  Finiteness of the float argument, read off the precondition.

  The precondition says that the conjunction, over every index of the float argument `x`, of the comparison
  `|x i| < +∞` is true.  A conjunction that is true had every conjunct true, so `|x i| < +∞` at each index; on the
  extended reals `|x| = max x (-x)` is `+∞` at both infinities, so each entry is a real number.  The mask argument
  is not constrained by the precondition and plays no part here.
-/
import proofs.«132449_j53369263620547_1_alg».proof.Defs
import proofs.«132449_j53369263620547_1_alg».proof.Proof.Gen.Pre_finite_inputs
import Idealize.ShloMosaic.Lib.ReduceAll
import Idealize.ShloMosaic.Lib.ValueIdx

noncomputable section

namespace Cert.Proof.Finite

open Idealize.ShloMosaic Idealize.SL.Sem Idealize.ShloMosaic.ValueIdx

/-- The rank-0 shape has one index: two indices are functions out of the empty set of axes. -/
instance : Subsingleton Cert.Pre_finite_inputs.S_.Idx := ⟨fun a b => funext fun d => d.elim0⟩

/-- An extended real whose absolute value `max x (-x)` compares strictly below the pattern of `+∞` is a real:
    at `⊥` and at `⊤` the maximum is `⊤`, which is not below `⊤`. -/
theorem real_of_abs_lt_top (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- Under the precondition every entry of the float argument, on every device, is a real number. -/
theorem finite_of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    ∀ j, ∃ r : ℝ, m ((c.tc : Thread Cert.KernelIdeal.nD Cert.KernelIdeal.τ).loc Cert.KernelIdeal.main_arg0) j = (r : EReal) := by
  intro j
  -- the precondition at the one index of its rank-0 result
  have h0 := congrFun (h c) ValueIdx.ix0
  dsimp only [Cert.Pre_finite_inputs.fn] at h0
  -- a conjunction over all indices that is true is true at index `j`: the comparison `|x j| < +∞`
  have h1 := Host.reduce_andi_all _ _ _ _ _ h0 j
  exact real_of_abs_lt_top _ h1

end Cert.Proof.Finite

end
-- ==== Proof.lean ====
/-
  Masked attention without a running maximum, against its plain reference.

  Both programs compute, for a batch `b`, a query row `n` and a feature `d`,
  `(∑ₖ w b n k · x b k d) / (∑ₖ w b n k + ε)` with the weight `w b n k = exp (⟨x b n, x b k⟩ / 32) · μ b n · μ b k`,
  `μ` the 0/1 mask and `32 = √1024`.  The kernel walks the key rows in two tiles of 1024, keeping the summed weights
  and the summed weighted rows in two accumulators that the first tile resets, and divides once after the second
  tile; its scores are scaled by the product with `2⁻⁵`.  The reference divides every weight by the summed weights
  plus `ε` and then sums the scaled rows over all 2048 key rows; its scores are scaled by the quotient by `√1024`.
  For finite `x` every weight is a nonnegative real and the divisor a positive real, so dividing before or after the
  sum over the key rows gives the same real, and a sum over 2048 rows is the sum over its two halves: both results
  are the specification `Cert.Attn.G` of the arguments.  The three frames: each kernel program runs its 64 grid points
  to the end with the array `x` shared in halves between the query and the key window, and leaves both arguments as
  launched; the reference's frame is its run with the result dropped.  The idealization rewrote no operation.
-/
import proofs.«132449_j53369263620547_1_alg».proof.Defs
import proofs.«132449_j53369263620547_1_alg».proof.Proof.Gen.Kernel
import proofs.«132449_j53369263620547_1_alg».proof.Proof.Gen.KernelIdeal
import proofs.«132449_j53369263620547_1_alg».proof.Proof.Gen.ReferenceIdeal
import proofs.«132449_j53369263620547_1_alg».proof.Proof.Gen.Pre_finite_inputs
import proofs.«132449_j53369263620547_1_alg».proof.Proof.Kernel.Main
import proofs.«132449_j53369263620547_1_alg».proof.Proof.KernelIdeal.Main
import proofs.«132449_j53369263620547_1_alg».proof.Proof.KernelIdeal.ValueRun
import proofs.«132449_j53369263620547_1_alg».proof.Proof.RefValue
import proofs.«132449_j53369263620547_1_alg».proof.Proof.Finite
import proofs.«132449_j53369263620547_1_alg».proof.Proof.FormsEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with `x` finite, both runs end with the result array at the
    specification of the arguments. -/
theorem algebraic : Cert.algebraic_KernelIdeal_ReferenceIdeal := by
  intro m ρ m' ρ' hpre hagree
  have hfin : ∀ (c : Dev Cert.KernelIdeal.nD) j, ∃ r : ℝ, Cert.KernelIdeal.Val.X m c j = (r : EReal) :=
    fun c => Cert.Proof.Finite.finite_of_pre m hpre c
  refine ⟨fun c => Cert.Attn.G (Cert.KernelIdeal.Val.X m c) (Cert.KernelIdeal.Val.MK m c), Cert.KernelIdeal.Val.run m ρ hfin, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v18_eq (F := Ideal) _ _).trans ?_
  funext i
  obtain ⟨b, n, d, rfl⟩ : ∃ (b : Fin 8) (n : Fin 2048) (d : Fin 1024), i = ValueIdx.ix3 b n d :=
    ⟨i 0, i 1, i 2, ValueIdx.eq_ix3 i⟩
  exact (Cert.ReferenceIdeal.RefValue.ref_wholeForm _ _ b n d).trans (Cert.Attn.wholeForm_eq_G _ _ (hfin c) b n d)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
